-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x64 : Shape := ⟨2, ![1600000, 64]⟩
abbrev S10000 : Shape := ⟨1, ![10000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_
  bcast_S_S10000 : S_.BroadcastsInDim S10000 (![] : Fin 0 → Fin S10000.rank)
  reducesTo_S10000_S_d0 : S10000.ReducesTo [0] S_

variable [Facts]

def fn_part3 {F : FTy → Type} [FloatOps F] (main_arg1 : IVec S2x1600000 32) (main_arg3 : IVec S10000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_v53 : IVec S1x1600000 32 := (extractStridedSlice S1x1600000 ![0, 0] · slices_S2x1600000_S1x1600000_0_0) main_arg1
  let main_v54 : IVec S1600000 32 := shapeCast S1600000 main_v53 shapeCasts_S1x1600000_S1600000
  let main_c_19 : IVec S_ 32 := constantI S_ 32 100000#32
  let main_v55 : IVec S1600000 32 := broadcastInDim S1600000 ![] bcast_S_S1600000 main_c_19
  let main_v56 : IVec S1600000 1 := cmpi .slt main_v54 main_v55
  let main_v57 : IVec S1600000 1 := andi main_v52 main_v56
  let main_c_20 : IVec S_ 1 := constantI S_ 1 1#1
  let main_v58 : IVec S_ 1 := (fun x v => Host.reduce IntOp.andi x v reducesTo_S1600000_S_d0 h_S_) main_v57 main_c_20
  let main_v59 : IVec S_ 1 := andi main_v48 main_v58
  let main_c_21 : IVec S_ 32 := constantI S_ 32 0#32
  let main_v60 : IVec S10000 32 := broadcastInDim S10000 ![] bcast_S_S10000 main_c_21
  let main_v61 : IVec S10000 1 := cmpi .sge main_arg3 main_v60
  let main_c_22 : IVec S_ 32 := constantI S_ 32 100000#32
  let main_v62 : IVec S10000 32 := broadcastInDim S10000 ![] bcast_S_S10000 main_c_22
  let main_v63 : IVec S10000 1 := cmpi .slt main_arg3 main_v62
  let main_v64 : IVec S10000 1 := andi main_v61 main_v63
  let main_c_23 : IVec S_ 1 := constantI S_ 1 1#1
  let main_v65 : IVec S_ 1 := (fun x v => Host.reduce IntOp.andi x v reducesTo_S10000_S_d0 h_S_) main_v64 main_c_23
  let main_v66 : IVec S_ 1 := andi main_v59 main_v65
  main_v66

def fn_part2 {F : FTy → Type} [FloatOps F] (main_arg1 : IVec S2x1600000 32) (main_arg3 : IVec S10000 32) (main_arg9 : FVec F S64 .f32) (main_arg10 : FVec F S1x64 .f32) (main_arg11 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg10
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg11
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_arg3 main_v48 main_v50 main_c_18

def fn_part1 {F : FTy → Type} [FloatOps F] (main_arg1 : IVec S2x1600000 32) (main_arg3 : IVec S10000 32) (main_arg6 : FVec F S64x64 .f32) (main_arg7 : FVec F S64 .f32) (main_arg8 : FVec F S64x128 .f32) (main_arg9 : FVec F S64 .f32) (main_arg10 : FVec F S1x64 .f32) (main_arg11 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x128 .f32 := Host.absf main_arg8
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg1 main_arg3 main_arg9 main_arg10 main_arg11 main_v33

def fn {F : FTy → Type} [FloatOps F] (main_arg0 : FVec F S100000x128 .f32) (main_arg1 : IVec S2x1600000 32) (main_arg2 : FVec F S1600000x64 .f32) (main_arg3 : IVec S10000 32) (main_arg4 : FVec F S64x128 .f32) (main_arg5 : FVec F S64 .f32) (main_arg6 : FVec F S64x64 .f32) (main_arg7 : FVec F S64 .f32) (main_arg8 : FVec F S64x128 .f32) (main_arg9 : FVec F S64 .f32) (main_arg10 : FVec F S1x64 .f32) (main_arg11 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x64 .f32 := Host.absf main_arg2
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg1 main_arg3 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x64 : Shape := ⟨2, ![1600000, 64]⟩
abbrev S10000 : Shape := ⟨1, ![10000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S1x1600000 : Shape := ⟨2, ![1, 1600000]⟩
abbrev S1600000 : Shape := ⟨1, ![1600000]⟩
abbrev S128x64 : Shape := ⟨2, ![128, 64]⟩
abbrev S100000x64 : Shape := ⟨2, ![100000, 64]⟩
abbrev S10000x128 : Shape := ⟨2, ![10000, 128]⟩
abbrev S10000x64 : Shape := ⟨2, ![10000, 64]⟩
abbrev S_ : Shape := ⟨0, ![]⟩
abbrev S1600000x1 : Shape := ⟨2, ![1600000, 1]⟩
abbrev S1x1 : Shape := ⟨2, ![1, 1]⟩
abbrev S6400x64 : Shape := ⟨2, ![6400, 64]⟩
abbrev S10000x1 : Shape := ⟨2, ![10000, 1]⟩
abbrev S64x1 : Shape := ⟨2, ![64, 1]⟩

abbrev nBuf : Space → Nat
  | .hbm => 89
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S10000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S128x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S100000x64, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1, .i32⟩
  | .hbm, ⟨32, _⟩ => ⟨S_, .i32⟩
  | .hbm, ⟨33, _⟩ => ⟨S1600000x1, .i32⟩
  | .hbm, ⟨34, _⟩ => ⟨S1600000x1, .i1⟩
  | .hbm, ⟨35, _⟩ => ⟨S1x1, .i32⟩
  | .hbm, ⟨36, _⟩ => ⟨S1600000x1, .i32⟩
  | .hbm, ⟨37, _⟩ => ⟨S1600000x1, .i1⟩
  | .hbm, ⟨38, _⟩ => ⟨S1600000x1, .i1⟩
  | .hbm, ⟨39, _⟩ => ⟨S_, .i1⟩
  | .hbm, ⟨40, _⟩ => ⟨S1600000, .i1⟩
  | .hbm, ⟨41, _⟩ => ⟨S1600000x64, .f32⟩
  | .hbm, ⟨42, _⟩ => ⟨S1600000x64, .i1⟩
  | .hbm, ⟨43, _⟩ => ⟨S_, .f32⟩
  | .hbm, ⟨44, _⟩ => ⟨S1600000x64, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S10000, .i32⟩
  | .hbm, ⟨54, _⟩ => ⟨S10000, .i1⟩
  | .hbm, ⟨55, _⟩ => ⟨S_, .i32⟩
  | .hbm, ⟨56, _⟩ => ⟨S10000, .i32⟩
  | .hbm, ⟨57, _⟩ => ⟨S10000, .i32⟩
  | .hbm, ⟨58, _⟩ => ⟨S10000, .i32⟩
  | .hbm, ⟨59, _⟩ => ⟨S10000x1, .i32⟩
  | .hbm, ⟨60, _⟩ => ⟨S1, .i32⟩
  | .hbm, ⟨61, _⟩ => ⟨S_, .i32⟩
  | .hbm, ⟨62, _⟩ => ⟨S10000x1, .i32⟩
  | .hbm, ⟨63, _⟩ => ⟨S10000x1, .i1⟩
  | .hbm, ⟨64, _⟩ => ⟨S1x1, .i32⟩
  | .hbm, ⟨65, _⟩ => ⟨S10000x1, .i32⟩
  | .hbm, ⟨66, _⟩ => ⟨S10000x1, .i1⟩
  | .hbm, ⟨67, _⟩ => ⟨S10000x1, .i1⟩
  | .hbm, ⟨68, _⟩ => ⟨S_, .i1⟩
  | .hbm, ⟨69, _⟩ => ⟨S10000, .i1⟩
  | .hbm, ⟨70, _⟩ => ⟨S10000x64, .f32⟩
  | .hbm, ⟨71, _⟩ => ⟨S10000x64, .i1⟩
  | .hbm, ⟨72, _⟩ => ⟨S_, .f32⟩
  | .hbm, ⟨73, _⟩ => ⟨S10000x64, .f32⟩
  | .hbm, ⟨74, _⟩ => ⟨S10000x64, .f32⟩
  | .hbm, ⟨75, _⟩ => ⟨S64x1, .f32⟩
  | .hbm, ⟨76, _⟩ => ⟨S10000x1, .f32⟩
  | .hbm, ⟨77, _⟩ => ⟨S1x1, .f32⟩
  | .hbm, ⟨78, _⟩ => ⟨S10000x1, .f32⟩
  | .hbm, ⟨79, _⟩ => ⟨S10000x1, .f32⟩
  | .hbm, ⟨80, _⟩ => ⟨S10000, .f32⟩
  | .hbm, ⟨81, _⟩ => ⟨S10000, .f32⟩
  | .hbm, ⟨82, _⟩ => ⟨S10000, .f32⟩
  | .hbm, ⟨83, _⟩ => ⟨S_, .f32⟩
  | .hbm, ⟨84, _⟩ => ⟨S10000, .f32⟩
  | .hbm, ⟨85, _⟩ => ⟨S10000, .f32⟩
  | .hbm, ⟨86, _⟩ => ⟨S_, .f32⟩
  | .hbm, ⟨87, _⟩ => ⟨S10000, .f32⟩
  | .hbm, ⟨88, _⟩ => ⟨S10000, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S64, .f32⟩
  | .local _ .vmem, ⟨4, _⟩ => ⟨S10000x64, .f32⟩
  | .local _ .vmem, ⟨5, _⟩ => ⟨S10000x64, .f32⟩
  | .local _ .vmem, ⟨6, _⟩ => ⟨S6400x64, .f32⟩
  | .local _ .vmem, ⟨7, _⟩ => ⟨S6400x64, .f32⟩
  | .local _ .vmem, ⟨8, _⟩ => ⟨S6400x64, .f32⟩
  | .local _ .vmem, ⟨9, _⟩ => ⟨S6400x64, .f32⟩
  | .local _ .vmem, ⟨10, _⟩ => ⟨S64x64, .f32⟩
  | .local _ .vmem, ⟨11, _⟩ => ⟨S64, .f32⟩
  | .local _ .vmem, ⟨12, _⟩ => ⟨S64x64, .f32⟩
  | .local _ .vmem, ⟨13, _⟩ => ⟨S64x64, .f32⟩
  | .local _ .vmem, ⟨14, _⟩ => ⟨S64, .f32⟩
  | .local _ .vmem, ⟨15, _⟩ => ⟨S6400x64, .f32⟩
  | .local _ .vmem, ⟨16, _⟩ => ⟨S6400x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v11 : Ref sig .tc := ⟨.hbm, 45, rfl⟩
abbrev main_v12 : Ref sig .tc := ⟨.hbm, 46, rfl⟩
abbrev main_cst : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_cst_0 : Ref sig .tc := ⟨.hbm, 83, rfl⟩
abbrev main_v26 : Ref sig .tc := ⟨.hbm, 84, rfl⟩
abbrev main_v27 : Ref sig .tc := ⟨.hbm, 85, rfl⟩
abbrev main_cst_1 : Ref sig .tc := ⟨.hbm, 86, rfl⟩
abbrev main_v28 : Ref sig .tc := ⟨.hbm, 87, rfl⟩
abbrev main_v29 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg7_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem7_1 : DmaSem sig := 16

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6400x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6400x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S6400x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  transposes_S64x128_S128x64_1_0 : S64x128.Transposes [1, 0] S128x64
  transposes_S64x64_S64x64_1_0 : S64x64.Transposes [1, 0] S64x64
  slices_S64x128_S64x64_0_0 : S64x128.Slices ![0, 0] S64x64
  slices_S64x128_S64x64_0_64 : S64x128.Slices ![0, 64] S64x64
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  inb_S6400x64_S6400x64_0_0 : ∀ a, (![0, 0] : Fin 2 → Nat) a + S6400x64.size a ≤ S6400x64.size a
  h_S6400x64 : 0 < S6400x64.numel
  inb_S64x64_S64x64_0_0 : ∀ a, (![0, 0] : Fin 2 → Nat) a + S64x64.size a ≤ S64x64.size a
  h_S64x64 : 0 < S64x64.numel
  shapeCasts_S64x64_S64x64 : S64x64.ShapeCasts S64x64
  broadcasts_S1x64_S6400x64 : S1x64.Broadcasts S6400x64
  shapeCasts_S6400x64_S6400x64 : S6400x64.ShapeCasts S6400x64
  bcast_S_S100000x64 : S_.BroadcastsInDim S100000x64 (![] : Fin 0 → Fin S100000x64.rank)
  bcast_S_S10000 : S_.BroadcastsInDim S10000 (![] : Fin 0 → Fin S10000.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S1x1_S10000x1_0_1 : S1x1.BroadcastsInDim S10000x1 (![0, 1] : Fin 2 → Fin S10000x1.rank)
  reducesTo_S10000x1_S10000_d1 : S10000x1.ReducesTo [1] S10000
  bcast_S10000_S10000x64_0 : S10000.BroadcastsInDim S10000x64 (![0] : Fin 1 → Fin S10000x64.rank)
  bcast_S_S10000x64 : S_.BroadcastsInDim S10000x64 (![] : Fin 0 → Fin S10000x64.rank)
  transposes_S1x64_S64x1_1_0 : S1x64.Transposes [1, 0] S64x1
  shapeCasts_S10000x1_S10000 : S10000x1.ShapeCasts S10000
  dot_S10000x128_S128x64_S10000x64_1_0_0_1_n_n_wf : DotDims.WF S10000x128 S128x64 S10000x64 [1] [0] [0] [1] [] []
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  gather_S100000x64_S10000x1_S10000x64_1_0_n_n_0_1_164_wf : GatherDims.WF S100000x64 S10000x1 S10000x64 [1] [0] [] [0] [] 1 ![1, 64]
  dot_S10000x64_S64x1_S10000x1_1_0_0_1_n_n_wf : DotDims.WF S10000x64 S64x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x64.size a ≤ S100000x64.size a
  hwx0_3 : ∀ i : grid0.Coords, EltTy.bits .f32 = 32 ∨ (Rect.block (s := S100000x64) S10000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6400x64.size a ≤ S1600000x64.size a
  hwx1_0 : ∀ i : grid1.Coords, EltTy.bits .f32 = 32 ∨ (Rect.block (s := S1600000x64) S6400x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6400x64.size a ≤ S1600000x64.size a
  hwx1_1 : ∀ i : grid1.Coords, EltTy.bits .f32 = 32 ∨ (Rect.block (s := S1600000x64) S6400x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S6400x64.size a ≤ S1600000x64.size a
  hwx1_7 : ∀ i : grid1.Coords, EltTy.bits .f32 = 32 ∨ (Rect.block (s := S1600000x64) S6400x64.size (cc1_transform_7 i) (hinb1_7 i)).WholeWords (EltTy.packing .f32)

variable [Facts₀]

def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S10000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S6400x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S6400x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12) S6400x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x64 : Shape := ⟨2, ![1600000, 64]⟩
abbrev S10000 : Shape := ⟨1, ![10000]⟩
abbrev S64x128 : Shape := ⟨2, ![64, 128]⟩
abbrev S64 : Shape := ⟨1, ![64]⟩
abbrev S64x64 : Shape := ⟨2, ![64, 64]⟩
abbrev S1x64 : Shape := ⟨2, ![1, 64]⟩
abbrev S1 : Shape := ⟨1, ![1]⟩
abbrev S128x64 : Shape := ⟨2, ![128, 64]⟩
abbrev S100000x64 : Shape := ⟨2, ![100000, 64]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S10000x1 : Shape := ⟨2, ![10000, 1]⟩
abbrev S10000x64 : Shape := ⟨2, ![10000, 64]⟩
abbrev S64x1 : Shape := ⟨2, ![64, 1]⟩
abbrev S1x1 : Shape := ⟨2, ![1, 1]⟩

abbrev nBuf : Space → Nat
  | .hbm => 79
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x64, .f32⟩
  | .hbm, ⟨3, _⟩ => ⟨S10000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x128, .f32⟩
  | .hbm, ⟨9, _⟩ => ⟨S64, .f32⟩
  | .hbm, ⟨10, _⟩ => ⟨S1x64, .f32⟩
  | .hbm, ⟨11, _⟩ => ⟨S1, .f32⟩
  | .hbm, ⟨12, _⟩ => ⟨S128x64, .f32⟩
  | .hbm, ⟨13, _⟩ => ⟨S100000x64, .f32⟩
  | .hbm, ⟨14, _⟩ => ⟨S1x64, .f32⟩
  | .hbm, ⟨15, _⟩ => ⟨S100000x64, .f32⟩
  | .hbm, ⟨16, _⟩ => ⟨S100000x64, .f32⟩
  | .hbm, ⟨17, _⟩ => ⟨S_, .f32⟩
  | .hbm, ⟨18, _⟩ => ⟨S100000x64, .f32⟩
  | .hbm, ⟨19, _⟩ => ⟨S100000x64, .f32⟩
  | .hbm, ⟨20, _⟩ => ⟨S64x64, .f32⟩
  | .hbm, ⟨21, _⟩ => ⟨S1600000x64, .f32⟩
  | .hbm, ⟨22, _⟩ => ⟨S1x64, .f32⟩
  | .hbm, ⟨23, _⟩ => ⟨S1600000x64, .f32⟩
  | .hbm, ⟨24, _⟩ => ⟨S1600000x64, .f32⟩
  | .hbm, ⟨25, _⟩ => ⟨S_, .f32⟩
  | .hbm, ⟨26, _⟩ => ⟨S1600000x64, .f32⟩
  | .hbm, ⟨27, _⟩ => ⟨S1600000x64, .f32⟩
  | .hbm, ⟨28, _⟩ => ⟨S1x1600000, .i32⟩
  | .hbm, ⟨29, _⟩ => ⟨S1600000, .i32⟩
  | .hbm, ⟨30, _⟩ => ⟨S1x1600000, .i32⟩
  | .hbm, ⟨31, _⟩ => ⟨S1600000, .i32⟩
  | .hbm, ⟨32, _⟩ => ⟨S64x64, .f32⟩
  | .hbm, ⟨33, _⟩ => ⟨S64x64, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000x64, .f32⟩
  | .hbm, ⟨43, _⟩ => ⟨S64x64, .f32⟩
  | .hbm, ⟨44, _⟩ => ⟨S1600000x64, .f32⟩
  | .hbm, ⟨45, _⟩ => ⟨S64x64, .f32⟩
  | .hbm, ⟨46, _⟩ => ⟨S1600000x64, .f32⟩
  | .hbm, ⟨47, _⟩ => ⟨S1600000x64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S_, .f32⟩
  | .hbm, ⟨52, _⟩ => ⟨S100000x64, .f32⟩
  | .hbm, ⟨53, _⟩ => ⟨S1600000x1, .i32⟩
  | .hbm, ⟨54, _⟩ => ⟨S100000x64, .f32⟩
  | .hbm, ⟨55, _⟩ => ⟨S100000x64, .f32⟩
  | .hbm, ⟨56, _⟩ => ⟨S_, .i32⟩
  | .hbm, ⟨57, _⟩ => ⟨S10000, .i32⟩
  | .hbm, ⟨58, _⟩ => ⟨S10000, .i1⟩
  | .hbm, ⟨59, _⟩ => ⟨S_, .i32⟩
  | .hbm, ⟨60, _⟩ => ⟨S10000, .i32⟩
  | .hbm, ⟨61, _⟩ => ⟨S10000, .i32⟩
  | .hbm, ⟨62, _⟩ => ⟨S10000, .i32⟩
  | .hbm, ⟨63, _⟩ => ⟨S10000x1, .i32⟩
  | .hbm, ⟨64, _⟩ => ⟨S10000x64, .f32⟩
  | .hbm, ⟨65, _⟩ => ⟨S64x1, .f32⟩
  | .hbm, ⟨66, _⟩ => ⟨S10000x1, .f32⟩
  | .hbm, ⟨67, _⟩ => ⟨S1x1, .f32⟩
  | .hbm, ⟨68, _⟩ => ⟨S10000x1, .f32⟩
  | .hbm, ⟨69, _⟩ => ⟨S10000x1, .f32⟩
  | .hbm, ⟨70, _⟩ => ⟨S10000, .f32⟩
  | .hbm, ⟨71, _⟩ => ⟨S10000, .f32⟩
  | .hbm, ⟨72, _⟩ => ⟨S10000, .f32⟩
  | .hbm, ⟨73, _⟩ => ⟨S_, .f32⟩
  | .hbm, ⟨74, _⟩ => ⟨S10000, .f32⟩
  | .hbm, ⟨75, _⟩ => ⟨S10000, .f32⟩
  | .hbm, ⟨76, _⟩ => ⟨S_, .f32⟩
  | .hbm, ⟨77, _⟩ => ⟨S10000, .f32⟩
  | .hbm, ⟨78, _⟩ => ⟨S10000, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_c : Ref sig .tc := ⟨.hbm, 34, rfl⟩
abbrev main_v18 : Ref sig .tc := ⟨.hbm, 35, rfl⟩
abbrev main_v19 : Ref sig .tc := ⟨.hbm, 36, rfl⟩
abbrev main_c_0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_c_1 : Ref sig .tc := ⟨.hbm, 56, rfl⟩
abbrev main_v37 : Ref sig .tc := ⟨.hbm, 57, rfl⟩
abbrev main_v38 : Ref sig .tc := ⟨.hbm, 58, rfl⟩
abbrev main_c_2 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_cst_4 : Ref sig .tc := ⟨.hbm, 76, rfl⟩
abbrev main_v54 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  transposes_S64x64_S64x64_1_0 : S64x64.Transposes [1, 0] S64x64
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  slices_S64x128_S64x64_0_0 : S64x128.Slices ![0, 0] S64x64
  slices_S64x128_S64x64_0_64 : S64x128.Slices ![0, 64] S64x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S10000 : S_.BroadcastsInDim S10000 (![] : Fin 0 → Fin S10000.rank)
  bcast_S10000_S10000x1_0 : S10000.BroadcastsInDim S10000x1 (![0] : Fin 1 → Fin S10000x1.rank)
  transposes_S1x64_S64x1_1_0 : S1x64.Transposes [1, 0] S64x1
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  shapeCasts_S10000x1_S10000 : S10000x1.ShapeCasts S10000
  dot_S100000x128_S128x64_S100000x64_1_0_0_1_n_n_wf : DotDims.WF S100000x128 S128x64 S100000x64 [1] [0] [0] [1] [] []
  dot_S1600000x64_S64x64_S1600000x64_1_0_0_1_n_n_wf : DotDims.WF S1600000x64 S64x64 S1600000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  gather_S100000x64_S10000x1_S10000x64_1_0_n_n_0_1_164_wf : GatherDims.WF S100000x64 S10000x1 S10000x64 [1] [0] [] [0] [] 1 ![1, 64]
  dot_S10000x64_S64x1_S10000x1_1_0_0_1_n_n_wf : DotDims.WF S10000x64 S64x1 S10000x1 [1] [0] [0] [1] [] []

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf

class Facts : Prop extends Facts₀ where

variable [Facts]
-- ==== Proof.Payloads.lean ====
/-
  What each kernel body stores, read at one element on the extended reals, over arbitrary loaded vectors.

  The node-encoding body stores, at row p and channel q of its block,
      max( Σ_k x[p, k] · w[k, q] + b[q], 0 ):
  the product into a zero accumulator is the plain sum over the contracted axis, the change of float format is the
  identity, the bias row is the vector b laid along every row.
  The edge body stores, at row e and channel h,
      ( Σ_k s[e, k] · wn[k, h] + Σ_k max( Σ_j a[e, j] · we[j, k] + be[k], 0 ) · wc[k, h] ) + bc[h]:
  the same three readings, twice over.
-/
import proofs.«425125_j17540646437558_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payloads

open Cert.KernelIdeal Cert.KernelIdeal.Gen Idealize.ShloMosaic Idealize.ShloMosaic.ValueIdx

/-! ## The two products' operand indices -/

abbrev dN := dot_S10000x128_S128x64_S10000x64_1_0_0_1_n_n
abbrev dE := dot_S6400x64_S64x64_S6400x64_1_0_0_1_n_n

theorem lhs_dN_0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_dN_1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_dN_0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_dN_1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

theorem lhs_dE_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide), dif_pos (show (0 : Fin S6400x64.rank) ∈ dot_S6400x64_S64x64_S6400x64_1_0_0_1_n_n.lhsNonContracting by decide)]
  rfl
theorem lhs_dE_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q
theorem rhs_dE_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q
theorem rhs_dE_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide), dif_pos (show (1 : Fin S64x64.rank) ∈ dot_S6400x64_S64x64_S6400x64_1_0_0_1_n_n.rhsNonContracting by decide)]
  rfl

/-! ## A product into the zero accumulator is the sum over the contracted axis -/

/-- The [10000, 128] × [128, 64] product at (p, q). -/
theorem matmul_node {φ₁ φ₂ : FTy} (l : FVec Ideal S10000x128 φ₁) (r : FVec Ideal S128x64 φ₂) (p : Fin 10000) (q : Fin 64) :
    matmul dot_S10000x128_S128x64_S10000x64_1_0_0_1_n_n none l r (constant (F := Ideal) S10000x64 .f32 0x00000000#32) (ix2 p q)
      = ∑ k : Fin 128, l (ix2 p k) * r (ix2 k q) := by
  refine (Ideal.matmul_constant_zero_apply dot_S10000x128_S128x64_S10000x64_1_0_0_1_n_n none l r (ix2 p q)).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx (ix2 p q) ((ValueIdx.contrEquiv1 dot_S10000x128_S128x64_S10000x64_1_0_0_1_n_n 128 rfl rfl).symm k) = ix2 p k := funext fun a => Fin.ext (by
    match a with
    | ⟨0, _⟩ => exact lhs_dN_0 _ _
    | ⟨1, _⟩ => exact (lhs_dN_1 _ _).trans hk)
  have er : dot_S10000x128_S128x64_S10000x64_1_0_0_1_n_n.rhsIdx (ix2 p q) ((ValueIdx.contrEquiv1 dot_S10000x128_S128x64_S10000x64_1_0_0_1_n_n 128 rfl rfl).symm k) = ix2 k q := funext fun a => Fin.ext (by
    match a with
    | ⟨0, _⟩ => exact (rhs_dN_0 _ _).trans hk
    | ⟨1, _⟩ => exact rhs_dN_1 _ _)
  rw [el, er]

/-- The [6400, 64] × [64, 64] product at (e, h). -/
theorem matmul_edge {φ₁ φ₂ : FTy} (l : FVec Ideal S6400x64 φ₁) (r : FVec Ideal S64x64 φ₂) (e : Fin 6400) (h : Fin 64) :
    matmul dot_S6400x64_S64x64_S6400x64_1_0_0_1_n_n none l r (constant (F := Ideal) S6400x64 .f32 0x00000000#32) (ix2 e h)
      = ∑ k : Fin 64, l (ix2 e k) * r (ix2 k h) := by
  refine (Ideal.matmul_constant_zero_apply dot_S6400x64_S64x64_S6400x64_1_0_0_1_n_n none l r (ix2 e h)).trans ?_
  rw [← Equiv.sum_comp (ValueIdx.contrEquiv1 dot_S6400x64_S64x64_S6400x64_1_0_0_1_n_n 64 rfl rfl).symm]
  refine Finset.sum_congr rfl fun k _ => ?_
  have hk := ValueIdx.contrEquiv1_symm_val dot_S6400x64_S64x64_S6400x64_1_0_0_1_n_n 64 rfl rfl k
  have el : dot_S6400x64_S64x64_S6400x64_1_0_0_1_n_n.lhsIdx (ix2 e h) ((ValueIdx.contrEquiv1 dot_S6400x64_S64x64_S6400x64_1_0_0_1_n_n 64 rfl rfl).symm k) = ix2 e k := funext fun a => Fin.ext (by
    match a with
    | ⟨0, _⟩ => exact lhs_dE_0 _ _
    | ⟨1, _⟩ => exact (lhs_dE_1 _ _).trans hk)
  have er : dot_S6400x64_S64x64_S6400x64_1_0_0_1_n_n.rhsIdx (ix2 e h) ((ValueIdx.contrEquiv1 dot_S6400x64_S64x64_S6400x64_1_0_0_1_n_n 64 rfl rfl).symm k) = ix2 k h := funext fun a => Fin.ext (by
    match a with
    | ⟨0, _⟩ => exact (rhs_dE_0 _ _).trans hk
    | ⟨1, _⟩ => exact rhs_dE_1 _ _)
  rw [el, er]

/-! ## A bias vector laid along every row -/

/-- A [64] vector cast to [1, 64] and broadcast to [10000, 64] reads the vector at the column. -/
theorem bias_node (b : FVec Ideal S64 .f32) (p : Fin 10000) (q : Fin 64) :
    broadcastTo S10000x64 (shapeCast S1x64 b shapeCasts_S64_S1x64) broadcasts_S1x64_S10000x64 (ix2 p q) = b (ix1 q) := by
  rw [broadcastTo_1b_ab_apply, shapeCast_a_1a_apply]

/-- A [64] vector cast to [1, 64] and broadcast to [6400, 64] reads the vector at the column. -/
theorem bias_edge (b : FVec Ideal S64 .f32) (e : Fin 6400) (h : Fin 64) :
    broadcastTo S6400x64 (shapeCast S1x64 b shapeCasts_S64_S1x64) broadcasts_S1x64_S6400x64 (ix2 e h) = b (ix1 h) := by
  rw [broadcastTo_1b_ab_apply, shapeCast_a_1a_apply]

/-! ## The stored values -/

/-- The node-encoding body's stored value at (p, q). -/
theorem nodePay_apply (x : Vec Ideal S10000x128 .f32) (w : Vec Ideal S128x64 .f32) (b : Vec Ideal S64 .f32) (p : Fin 10000) (q : Fin 64) :
    k0_pay1 (F := Ideal) x w b (ix2 p q)
      = max ((∑ k : Fin 128, x (ix2 p k) * w (ix2 k q)) + b (ix1 q)) (Ideal.ofBits .f32 0x00000000#32) := by
  unfold k0_pay1
  simp only [shapeCast_self]
  rw [maximumf_apply, addf_apply, broadcast_apply, matmul_node, bias_node]
  rfl

/-- The edge embedding inside the edge body, at (e, k). -/
theorem edgeEmbPay_apply (a : Vec Ideal S6400x64 .f32) (we : Vec Ideal S64x64 .f32) (be : Vec Ideal S64 .f32) (e : Fin 6400) (k : Fin 64) :
    maximumf (addf (matmul dot_S6400x64_S64x64_S6400x64_1_0_0_1_n_n none (truncf .bf16 a bitsLt_bf16_f32)
        (truncf .bf16 we bitsLt_bf16_f32) (constant (F := Ideal) S6400x64 .f32 0x00000000#32))
      (broadcastTo S6400x64 (shapeCast S1x64 be shapeCasts_S64_S1x64) broadcasts_S1x64_S6400x64))
      (broadcast S6400x64 (Scalar.ofBits (F := Ideal) .f32 0x00000000#32)) (ix2 e k)
      = max ((∑ j : Fin 64, a (ix2 e j) * we (ix2 j k)) + be (ix1 k)) (Ideal.ofBits .f32 0x00000000#32) := by
  rw [maximumf_apply, addf_apply, broadcast_apply, matmul_edge, bias_edge]
  rfl

/-- The edge body's stored value at (e, h). -/
theorem edgePay_apply (a : Vec Ideal S6400x64 .f32) (we : Vec Ideal S64x64 .f32) (be : Vec Ideal S64 .f32) (s : Vec Ideal S6400x64 .f32)
    (wn : Vec Ideal S64x64 .f32) (wc : Vec Ideal S64x64 .f32) (bc : Vec Ideal S64 .f32) (e : Fin 6400) (h : Fin 64) :
    k1_pay1 (F := Ideal) a we be s wn wc bc (ix2 e h)
      = ((∑ k : Fin 64, s (ix2 e k) * wn (ix2 k h))
          + (∑ k : Fin 64, max ((∑ j : Fin 64, a (ix2 e j) * we (ix2 j k)) + be (ix1 k)) (Ideal.ofBits .f32 0x00000000#32) * wc (ix2 k h)))
        + bc (ix1 h) := by
  unfold k1_pay1
  simp only [shapeCast_self]
  rw [addf_apply, addf_apply, matmul_edge, matmul_edge, bias_edge]
  refine congrArg (· + bc (ix1 h)) (congrArg₂ (· + ·) rfl (Finset.sum_congr rfl fun k _ => ?_))
  rw [truncf_apply, edgeEmbPay_apply]
  rfl

end Cert.KernelIdeal.Payloads

end
-- ==== Proof.RefStages.lean ====
/-
  The reference's three dense stages read at one element, on the extended reals.

  * the node embedding, at node p and channel q: max( Σ_k x[p, k] · W_nodeᵀ[k, q] + b_node[q], 0 );
  * the edge embedding, at edge e and channel k: max( Σ_j a[e, j] · W_edgeᵀ[j, k] + b_edge[k], 0 );
  * the message, at edge e and channel h:
      ( Σ_k src[e, k] · W_cnᵀ[k, h] + Σ_k emb[e, k] · W_ceᵀ[k, h] ) + b_conv[h],
    where src is the gathered source-node rows and emb the edge embedding.
  The transposed weights, the gathered rows and the edge embedding stay named: nothing here opens them. Each
  statement is the chain of the one-operation reading lemmas, with the composed index maps identified with plain
  (row, column) indices.
-/
import proofs.«425125_j17540646437558_1_alg».proof.Proof.Gen.ReferenceIdeal.Read
import Idealize.ShloMosaic.Lib.ValueIdx

noncomputable section

namespace Cert.ReferenceIdeal.Stages

open Cert.ReferenceIdeal Cert.ReferenceIdeal.Read Idealize.ShloMosaic Idealize.ShloMosaic.ValueIdx

/-- The node embedding at (p, q). -/
theorem nodeEmb_apply (x0 : (⟨S100000x128, .f32⟩ : BufTy).Contents (Elt Ideal)) (x4 : (⟨S64x128, .f32⟩ : BufTy).Contents (Elt Ideal))
    (x5 : (⟨S64, .f32⟩ : BufTy).Contents (Elt Ideal)) (p : Fin 100000) (q : Fin 64) :
    val_main_v5 (F := Ideal) x0 x4 x5 (ix2 p q)
      = max ((∑ k : Fin 128, x0 (ix2 p k) * val_main_v0 (F := Ideal) x4 (ix2 k q)) + x5 (ix1 q)) (Ideal.ofBits .f32 0x00000000#32) := by
  rw [val_main_v5_apply, val_main_v4_apply, val_main_v1_apply, val_main_v3_apply, val_main_v2_apply, val_main_call0_v0_apply,
    val_main_call0_cst_apply]
  have el : ∀ k : Fin 128, lidx_main_v1 (ix2 p q) k = ix2 p k := fun k => funext fun a => by
    match a with | ⟨0, _⟩ => rfl | ⟨1, _⟩ => rfl
  have er : ∀ k : Fin 128, ridx_main_v1 (ix2 p q) k = ix2 k q := fun k => funext fun a => by
    match a with | ⟨0, _⟩ => rfl | ⟨1, _⟩ => rfl
  have eb : idx_main_v2 (idx_main_v3 (ix2 p q)) = ix1 q := funext fun a => by
    match a with | ⟨0, _⟩ => rfl
  simp only [el, er, eb]
  rfl

/-- The edge embedding at (e, k). -/
theorem edgeEmb_apply (x2 : (⟨S1600000x64, .f32⟩ : BufTy).Contents (Elt Ideal)) (x6 : (⟨S64x64, .f32⟩ : BufTy).Contents (Elt Ideal))
    (x7 : (⟨S64, .f32⟩ : BufTy).Contents (Elt Ideal)) (e : Fin 1600000) (k : Fin 64) :
    val_main_v11 (F := Ideal) x2 x6 x7 (ix2 e k)
      = max ((∑ j : Fin 64, x2 (ix2 e j) * val_main_v6 (F := Ideal) x6 (ix2 j k)) + x7 (ix1 k)) (Ideal.ofBits .f32 0x00000000#32) := by
  rw [val_main_v11_apply, val_main_v10_apply, val_main_v7_apply, val_main_v9_apply, val_main_v8_apply, val_main_call1_v0_apply,
    val_main_call1_cst_apply]
  have el : ∀ j : Fin 64, lidx_main_v7 (ix2 e k) j = ix2 e j := fun j => funext fun a => by
    match a with | ⟨0, _⟩ => rfl | ⟨1, _⟩ => rfl
  have er : ∀ j : Fin 64, ridx_main_v7 (ix2 e k) j = ix2 j k := fun j => funext fun a => by
    match a with | ⟨0, _⟩ => rfl | ⟨1, _⟩ => rfl
  have eb : idx_main_v8 (idx_main_v9 (ix2 e k)) = ix1 k := funext fun a => by
    match a with | ⟨0, _⟩ => rfl
  simp only [el, er, eb]
  rfl

/-- The message at (e, h): the two products' sums, then the bias. -/
theorem msg_apply (x0 : (⟨S100000x128, .f32⟩ : BufTy).Contents (Elt Ideal)) (x1 : (⟨S2x1600000, .i32⟩ : BufTy).Contents (Elt Ideal))
    (x2 : (⟨S1600000x64, .f32⟩ : BufTy).Contents (Elt Ideal)) (x4 : (⟨S64x128, .f32⟩ : BufTy).Contents (Elt Ideal))
    (x5 : (⟨S64, .f32⟩ : BufTy).Contents (Elt Ideal)) (x6 : (⟨S64x64, .f32⟩ : BufTy).Contents (Elt Ideal))
    (x7 : (⟨S64, .f32⟩ : BufTy).Contents (Elt Ideal)) (x8 : (⟨S64x128, .f32⟩ : BufTy).Contents (Elt Ideal))
    (x9 : (⟨S64, .f32⟩ : BufTy).Contents (Elt Ideal)) (e : Fin 1600000) (h : Fin 64) :
    val_main_v32 (F := Ideal) x0 x1 x2 x4 x5 x6 x7 x8 x9 (ix2 e h)
      = ((∑ k : Fin 64, val_main_v24 (F := Ideal) x0 x1 x4 x5 (ix2 e k) * val_main_v25 (F := Ideal) x8 (ix2 k h))
          + (∑ k : Fin 64, val_main_v11 (F := Ideal) x2 x6 x7 (ix2 e k) * val_main_v27 (F := Ideal) x8 (ix2 k h)))
        + x9 (ix1 h) := by
  rw [val_main_v32_apply, val_main_v29_apply, val_main_v26_apply, val_main_v28_apply, val_main_v31_apply, val_main_v30_apply]
  have el : ∀ k : Fin 64, lidx_main_v26 (ix2 e h) k = ix2 e k := fun k => funext fun a => by
    match a with | ⟨0, _⟩ => rfl | ⟨1, _⟩ => rfl
  have er : ∀ k : Fin 64, ridx_main_v26 (ix2 e h) k = ix2 k h := fun k => funext fun a => by
    match a with | ⟨0, _⟩ => rfl | ⟨1, _⟩ => rfl
  have el' : ∀ k : Fin 64, lidx_main_v28 (ix2 e h) k = ix2 e k := fun k => funext fun a => by
    match a with | ⟨0, _⟩ => rfl | ⟨1, _⟩ => rfl
  have er' : ∀ k : Fin 64, ridx_main_v28 (ix2 e h) k = ix2 k h := fun k => funext fun a => by
    match a with | ⟨0, _⟩ => rfl | ⟨1, _⟩ => rfl
  have eb : idx_main_v30 (idx_main_v31 (ix2 e h)) = ix1 h := funext fun a => by
    match a with | ⟨0, _⟩ => rfl
  simp only [el, er, el', er', eb]
  rfl

end Cert.ReferenceIdeal.Stages

end
-- ==== Proof.NodeRegion.lean ====
/-
  The node-encoding pipeline's result array as one function of the arrays it reads.

  The pipeline walks ten blocks of 10000 node rows. At block t it stages rows 10000·t … 10000·t + 9999 of the
  feature matrix, the whole transposed weight matrix and the whole bias vector, and writes back the block's
  max( x · Wᵀ + b, 0 ). The ten row blocks tile the [100000, 64] result, so the array the pipeline leaves is the
  reference's node embedding of the same feature matrix, weight matrix and bias: at row 10000·t + p and channel q
  both are max( Σ_k x[10000·t + p, k] · Wᵀ[k, q] + b[q], 0 ).
  The weight window holds a transposed matrix written by the host before the pipeline; it enters as a hypothesis
  (`hw`) so that this module says nothing about the host side.
-/
import proofs.«425125_j17540646437558_1_alg».proof.Proof.Gen.KernelIdeal.Frame
import proofs.«425125_j17540646437558_1_alg».proof.Proof.Payloads
import proofs.«425125_j17540646437558_1_alg».proof.Proof.RefStages
import Idealize.ShloMosaic.Lib.Pipeline.Value

set_option maxRecDepth 16384

noncomputable section

namespace Cert.KernelIdeal.NodeRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the ten grid points: the feature window moves with the result window along the rows,
    every other block index is 0, and the result's row-block index is at most 9. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 1) = 0
    ∧ win0_3.index t (1 : Fin 2) = 0 ∧ win0_3.index t (0 : Fin 2) ≤ 9 :=
  (by decide +kernel : ∀ t : Fin grid0.N, _)

/-- Every row block of the result is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-! ## The blocks the body loads, read where the result's block says -/

/-- Row p, column k of the feature block at point t is row 10000·(block index) + p of the feature matrix. -/
theorem read_x (c : Dev nD) (t : Fin cfg0.N) (p : Fin 10000) (k : Fin 128) (P : Fin 100000)
    (hP : P.val = win0_3.index t (0 : Fin 2) * 10000 + p.val) :
    iblk0 V c 0 t (ix2 p k) = V c main_arg0 (ix2 P k) := by
  obtain ⟨e0, e1, -⟩ := idx_facts t
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 10000 + 1 * p.val = P.val; omega
  | ⟨1, _⟩ => show win0_0.index t (1 : Fin 2) * 128 + 1 * k.val = k.val; omega

/-- The weight block at any point is the whole transposed weight matrix. -/
theorem read_w (c : Dev nD) (t : Fin cfg0.N) (k : Fin 128) (q : Fin 64) :
    iblk0 V c 1 t (ix2 k q) = V c main_v4 (ix2 k q) := by
  obtain ⟨-, -, e2, e3, -⟩ := idx_facts t
  show V c main_v4 (((cfg0.win 1).blk t).view.emb (ix2 k q)) = V c main_v4 (ix2 k q)
  refine congrArg (V c main_v4) (funext fun a => Fin.ext ?_)
  match a with
  | ⟨0, _⟩ => show win0_1.index t (0 : Fin 2) * 128 + 1 * k.val = k.val; omega
  | ⟨1, _⟩ => show win0_1.index t (1 : Fin 2) * 64 + 1 * q.val = q.val; omega

/-- The bias block at any point is the whole bias vector. -/
theorem read_b (c : Dev nD) (t : Fin cfg0.N) (q : Fin 64) :
    iblk0 V c 2 t (ix1 q) = V c main_arg5 (ix1 q) := by
  obtain ⟨-, -, -, -, e4, -⟩ := idx_facts t
  show V c main_arg5 (((cfg0.win 2).blk t).view.emb (ix1 q)) = V c main_arg5 (ix1 q)
  refine congrArg (V c main_arg5) (funext fun a => Fin.ext ?_)
  match a with
  | ⟨0, _⟩ => show win0_2.index t (0 : Fin 1) * 64 + 1 * q.val = q.val; omega

/-! ## What a point writes back, the cover, the array -/

/-- WHAT POINT t WRITES BACK is block t of the reference's node embedding of the arrays the pipeline reads. -/
theorem flushed_eq (c : Dev nD) (x4 : (⟨Cert.ReferenceIdeal.S64x128, .f32⟩ : BufTy).Contents (Elt Ideal))
    (hw : V c main_v4 = Cert.ReferenceIdeal.Read.val_main_v0 (F := Ideal) x4) (t : Fin cfg0.N) :
    (dat0 V c).flushed 3 t = ((cfg0.win 3).blk t).view.read (Elt Ideal)
      (Cert.ReferenceIdeal.Read.val_main_v5 (F := Ideal) (V c main_arg0) x4 (V c main_arg5)) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x64) hz2, View.ld_unit_zero (S := S64) hz1]
  obtain ⟨e0, e1, e2, e3, e4, e5, e6⟩ := idx_facts t
  funext j
  obtain ⟨p, q, rfl⟩ : ∃ (p : Fin 10000) (q : Fin 64), j = ix2 p q := ⟨j 0, j 1, eq_ix2 j⟩
  have hp := p.isLt
  let P : Fin 100000 := ⟨win0_3.index t (0 : Fin 2) * 10000 + p.val, by omega⟩
  have hemb : ((cfg0.win 3).blk t).view.emb (ix2 p q) = ix2 P q := funext fun a => Fin.ext (by
    match a with
    | ⟨0, _⟩ => show win0_3.index t (0 : Fin 2) * 10000 + 1 * p.val = win0_3.index t (0 : Fin 2) * 10000 + p.val; omega
    | ⟨1, _⟩ => show win0_3.index t (1 : Fin 2) * 64 + 1 * q.val = q.val; omega)
  show k0_pay1 (F := Ideal) (iblk0 V c 0 t) (iblk0 V c 1 t) (iblk0 V c 2 t) (ix2 p q)
    = Cert.ReferenceIdeal.Read.val_main_v5 (F := Ideal) (V c main_arg0) x4 (V c main_arg5) (((cfg0.win 3).blk t).view.emb (ix2 p q))
  rw [hemb]
  refine (Payloads.nodePay_apply (iblk0 V c 0 t) (iblk0 V c 1 t) (iblk0 V c 2 t) p q).trans ?_
  refine Eq.trans ?_ (Cert.ReferenceIdeal.Stages.nodeEmb_apply (V c main_arg0) x4 (V c main_arg5) P q).symm
  rw [read_b V c t q]
  refine congrArg (fun s => max (s + V c main_arg5 (ix1 q)) (Ideal.ofBits .f32 0x00000000#32)) (Finset.sum_congr rfl fun k _ => ?_)
  rw [read_x V c t p k P rfl, read_w V c t k q, hw]

/-- An index of the result array is in point t's block iff each coordinate is in the block's range on its axis. -/
theorem mem_blk (t : Fin cfg0.N) (i : S100000x64.Idx) :
    i ∈ ((cfg0.win 3).blk t).view.set ↔ ∀ a : Fin 2, win0_3.index t a * S10000x64.size a ≤ (i a).val ∧ (i a).val < win0_3.index t a * S10000x64.size a + S10000x64.size a := by
  show i ∈ ((View.whole main_v10).slice (win0_3.rect t)).set ↔ _
  rw [View.set_slice_whole, Rect.mem_set_unit]
  exact Iff.rfl

/-- The ten row blocks cover the result array: row r lies in block r / 10000. -/
theorem cover (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  obtain ⟨t, ht⟩ := idx_onto ⟨(i 0).val / 10000, by omega⟩
  have q0 : win0_3.index t (0 : Fin 2) = (i 0).val / 10000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 64 ≤ (i 1).val ∧ (i 1).val < win0_3.index t (1 : Fin 2) * 64 + 64; omega

/-- THE ARRAY the pipeline leaves is the reference's node embedding of the arrays it reads. -/
theorem final (c : Dev nD) (x4 : (⟨Cert.ReferenceIdeal.S64x128, .f32⟩ : BufTy).Contents (Elt Ideal))
    (hw : V c main_v4 = Cert.ReferenceIdeal.Read.val_main_v0 (F := Ideal) x4) :
    (dat0 V c).arrAt 3 cfg0.N = Cert.ReferenceIdeal.Read.val_main_v5 (F := Ideal) (V c main_arg0) x4 (V c main_arg5) :=
  (dat0 V c).arrAt_eq_of_cover 3 _ (fun t _ => flushed_eq V c x4 hw t) cover

end Cert.KernelIdeal.NodeRegion

end
-- ==== Proof.EdgeRegion.lean ====
/-
  The edge-message pipeline's result array as one function of the arrays it reads.

  The pipeline walks 250 blocks of 6400 edges. At block t it stages rows 6400·t … 6400·t + 6399 of the edge
  attributes and of the gathered source-node rows, and the whole of four small arrays (the transposed edge weights
  and their bias, the two transposed halves of the convolution weights, the convolution bias), and writes back the
  block's ( s · Wcnᵀ + max( a · Weᵀ + be, 0 ) · Wceᵀ ) + bc. The 250 row blocks tile the [1600000, 64] result, so
  the array the pipeline leaves is the reference's message array: at edge 6400·t + e and channel h both are
      ( Σ_k s[E, k] · Wcnᵀ[k, h] + Σ_k max( Σ_j a[E, j] · Weᵀ[j, k] + be[k], 0 ) · Wceᵀ[k, h] ) + bc[h],   E = 6400·t + e.
  The four arrays the host wrote before the pipeline (the gathered rows and the three transposed matrices) enter as
  hypotheses, so that this module says nothing about the host side.
-/
import proofs.«425125_j17540646437558_1_alg».proof.Proof.Gen.KernelIdeal.Frame
import proofs.«425125_j17540646437558_1_alg».proof.Proof.Payloads
import proofs.«425125_j17540646437558_1_alg».proof.Proof.RefStages
import Idealize.ShloMosaic.Lib.Pipeline.Value

set_option maxRecDepth 16384

noncomputable section

namespace Cert.KernelIdeal.EdgeRegion

open Cert.KernelIdeal Cert.KernelIdeal.Gen Idealize.ShloMosaic Idealize.ShloMosaic.TcCoe Idealize.ShloMosaic.ValueIdx
open Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The printed index maps over the 250 grid points: the two per-edge windows move with the result window along the
    rows, every other block index is 0, and the result's row-block index is at most 249. -/
theorem idx_facts : ∀ t : Fin cfg1.N,
    win1_0.index t (0 : Fin 2) = win1_7.index t (0 : Fin 2) ∧ win1_0.index t (1 : Fin 2) = 0
    ∧ win1_1.index t (0 : Fin 2) = win1_7.index t (0 : Fin 2) ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (1 : Fin 2) = 0 ∧ win1_7.index t (0 : Fin 2) ≤ 249 :=
  (by decide +kernel : ∀ t : Fin grid1.N, _)

/-- Every row block of the result is some point's. -/
theorem idx_onto : ∀ q0 : Fin 250, ∃ t : Fin cfg1.N, win1_7.index t = ![q0.val, 0] :=
  (by decide +kernel : ∀ q0 : Fin 250, ∃ t : Fin grid1.N, win1_7.index t = ![q0.val, 0])

/-! ## The blocks the body loads, read where the result's block says -/

/-- Row e, column j of the edge-attribute block at point t is row 6400·(block index) + e of the attribute matrix. -/
theorem read_a (c : Dev nD) (t : Fin cfg1.N) (e : Fin 6400) (j : Fin 64) (E : Fin 1600000)
    (hE : E.val = win1_7.index t (0 : Fin 2) * 6400 + e.val) :
    iblk1 V c 0 t (ix2 e j) = V c main_arg2 (ix2 E j) := by
  obtain ⟨e0, e1, -⟩ := idx_facts t
  show V c main_arg2 (((cfg1.win 0).blk t).view.emb (ix2 e j)) = V c main_arg2 (ix2 E j)
  refine congrArg (V c main_arg2) (funext fun a => Fin.ext ?_)
  match a with
  | ⟨0, _⟩ => show win1_0.index t (0 : Fin 2) * 6400 + 1 * e.val = E.val; omega
  | ⟨1, _⟩ => show win1_0.index t (1 : Fin 2) * 64 + 1 * j.val = j.val; omega

/-- Likewise the block of gathered source-node rows. -/
theorem read_s (c : Dev nD) (t : Fin cfg1.N) (e : Fin 6400) (k : Fin 64) (E : Fin 1600000)
    (hE : E.val = win1_7.index t (0 : Fin 2) * 6400 + e.val) :
    iblk1 V c 1 t (ix2 e k) = V c main_v11 (ix2 E k) := by
  obtain ⟨-, -, e2, e3, -⟩ := idx_facts t
  show V c main_v11 (((cfg1.win 1).blk t).view.emb (ix2 e k)) = V c main_v11 (ix2 E k)
  refine congrArg (V c main_v11) (funext fun a => Fin.ext ?_)
  match a with
  | ⟨0, _⟩ => show win1_1.index t (0 : Fin 2) * 6400 + 1 * e.val = E.val; omega
  | ⟨1, _⟩ => show win1_1.index t (1 : Fin 2) * 64 + 1 * k.val = k.val; omega

/-- The edge-weight block at any point is the whole transposed edge-weight matrix. -/
theorem read_we (c : Dev nD) (t : Fin cfg1.N) (j : Fin 64) (k : Fin 64) :
    iblk1 V c 2 t (ix2 j k) = V c main_v5 (ix2 j k) := by
  obtain ⟨-, -, -, -, e4, e5, -⟩ := idx_facts t
  show V c main_v5 (((cfg1.win 2).blk t).view.emb (ix2 j k)) = V c main_v5 (ix2 j k)
  refine congrArg (V c main_v5) (funext fun a => Fin.ext ?_)
  match a with
  | ⟨0, _⟩ => show win1_2.index t (0 : Fin 2) * 64 + 1 * j.val = j.val; omega
  | ⟨1, _⟩ => show win1_2.index t (1 : Fin 2) * 64 + 1 * k.val = k.val; omega

/-- The edge-bias block at any point is the whole edge bias. -/
theorem read_be (c : Dev nD) (t : Fin cfg1.N) (k : Fin 64) :
    iblk1 V c 3 t (ix1 k) = V c main_arg7 (ix1 k) := by
  obtain ⟨-, -, -, -, -, -, e6, -⟩ := idx_facts t
  show V c main_arg7 (((cfg1.win 3).blk t).view.emb (ix1 k)) = V c main_arg7 (ix1 k)
  refine congrArg (V c main_arg7) (funext fun a => Fin.ext ?_)
  match a with
  | ⟨0, _⟩ => show win1_3.index t (0 : Fin 1) * 64 + 1 * k.val = k.val; omega

/-- The block of the convolution weights' edge half at any point is that whole transposed matrix. -/
theorem read_wc (c : Dev nD) (t : Fin cfg1.N) (k : Fin 64) (h : Fin 64) :
    iblk1 V c 4 t (ix2 k h) = V c main_v9 (ix2 k h) := by
  obtain ⟨-, -, -, -, -, -, -, e7, e8, -⟩ := idx_facts t
  show V c main_v9 (((cfg1.win 4).blk t).view.emb (ix2 k h)) = V c main_v9 (ix2 k h)
  refine congrArg (V c main_v9) (funext fun a => Fin.ext ?_)
  match a with
  | ⟨0, _⟩ => show win1_4.index t (0 : Fin 2) * 64 + 1 * k.val = k.val; omega
  | ⟨1, _⟩ => show win1_4.index t (1 : Fin 2) * 64 + 1 * h.val = h.val; omega

/-- The block of the convolution weights' node half at any point is that whole transposed matrix. -/
theorem read_wn (c : Dev nD) (t : Fin cfg1.N) (k : Fin 64) (h : Fin 64) :
    iblk1 V c 5 t (ix2 k h) = V c main_v7 (ix2 k h) := by
  obtain ⟨-, -, -, -, -, -, -, -, -, e9, e10, -⟩ := idx_facts t
  show V c main_v7 (((cfg1.win 5).blk t).view.emb (ix2 k h)) = V c main_v7 (ix2 k h)
  refine congrArg (V c main_v7) (funext fun a => Fin.ext ?_)
  match a with
  | ⟨0, _⟩ => show win1_5.index t (0 : Fin 2) * 64 + 1 * k.val = k.val; omega
  | ⟨1, _⟩ => show win1_5.index t (1 : Fin 2) * 64 + 1 * h.val = h.val; omega

/-- The convolution-bias block at any point is the whole convolution bias. -/
theorem read_bc (c : Dev nD) (t : Fin cfg1.N) (h : Fin 64) :
    iblk1 V c 6 t (ix1 h) = V c main_arg9 (ix1 h) := by
  obtain ⟨-, -, -, -, -, -, -, -, -, -, -, e11, -⟩ := idx_facts t
  show V c main_arg9 (((cfg1.win 6).blk t).view.emb (ix1 h)) = V c main_arg9 (ix1 h)
  refine congrArg (V c main_arg9) (funext fun a => Fin.ext ?_)
  match a with
  | ⟨0, _⟩ => show win1_6.index t (0 : Fin 1) * 64 + 1 * h.val = h.val; omega

/-! ## What a point writes back, the cover, the array -/

section Final

variable (c : Dev nD)
  (x0 : (⟨Cert.ReferenceIdeal.S100000x128, .f32⟩ : BufTy).Contents (Elt Ideal))
  (x1 : (⟨Cert.ReferenceIdeal.S2x1600000, .i32⟩ : BufTy).Contents (Elt Ideal))
  (x4 : (⟨Cert.ReferenceIdeal.S64x128, .f32⟩ : BufTy).Contents (Elt Ideal))
  (x5 : (⟨Cert.ReferenceIdeal.S64, .f32⟩ : BufTy).Contents (Elt Ideal))
  (x6 : (⟨Cert.ReferenceIdeal.S64x64, .f32⟩ : BufTy).Contents (Elt Ideal))
  (x8 : (⟨Cert.ReferenceIdeal.S64x128, .f32⟩ : BufTy).Contents (Elt Ideal))
  (hs : V c main_v11 = Cert.ReferenceIdeal.Read.val_main_v24 (F := Ideal) x0 x1 x4 x5)
  (hwe : V c main_v5 = Cert.ReferenceIdeal.Read.val_main_v6 (F := Ideal) x6)
  (hwc : V c main_v9 = Cert.ReferenceIdeal.Read.val_main_v27 (F := Ideal) x8)
  (hwn : V c main_v7 = Cert.ReferenceIdeal.Read.val_main_v25 (F := Ideal) x8)

include hs hwe hwc hwn

/-- WHAT POINT t WRITES BACK is block t of the reference's message array of the arrays the pipeline reads. -/
theorem flushed_eq (t : Fin cfg1.N) :
    (dat1 V c).flushed 7 t = ((cfg1.win 7).blk t).view.read (Elt Ideal)
      (Cert.ReferenceIdeal.Read.val_main_v32 (F := Ideal) x0 x1 (V c main_arg2) x4 x5 x6 (V c main_arg7) x8 (V c main_arg9)) := by
  show (cfg1.win 7).cut (grid1.coords t) ((dat1 V c).after 7 t) = _
  rw [after1_7]
  unfold out1_7
  rw [View.canon_unit_zero hz2]
  simp only [View.ld_unit_zero (S := S6400x64) hz2, View.ld_unit_zero (S := S64x64) hz2, View.ld_unit_zero (S := S64) hz1]
  obtain ⟨-, -, -, -, -, -, -, -, -, -, -, -, e12, e13⟩ := idx_facts t
  funext j
  obtain ⟨e, h, rfl⟩ : ∃ (e : Fin 6400) (h : Fin 64), j = ix2 e h := ⟨j 0, j 1, eq_ix2 j⟩
  have he := e.isLt
  let E : Fin 1600000 := ⟨win1_7.index t (0 : Fin 2) * 6400 + e.val, by omega⟩
  have hemb : ((cfg1.win 7).blk t).view.emb (ix2 e h) = ix2 E h := funext fun a => Fin.ext (by
    match a with
    | ⟨0, _⟩ => show win1_7.index t (0 : Fin 2) * 6400 + 1 * e.val = win1_7.index t (0 : Fin 2) * 6400 + e.val; omega
    | ⟨1, _⟩ => show win1_7.index t (1 : Fin 2) * 64 + 1 * h.val = h.val; omega)
  show k1_pay1 (F := Ideal) (iblk1 V c 0 t) (iblk1 V c 2 t) (iblk1 V c 3 t) (iblk1 V c 1 t) (iblk1 V c 5 t) (iblk1 V c 4 t) (iblk1 V c 6 t) (ix2 e h)
    = Cert.ReferenceIdeal.Read.val_main_v32 (F := Ideal) x0 x1 (V c main_arg2) x4 x5 x6 (V c main_arg7) x8 (V c main_arg9) (((cfg1.win 7).blk t).view.emb (ix2 e h))
  rw [hemb]
  refine (Payloads.edgePay_apply (iblk1 V c 0 t) (iblk1 V c 2 t) (iblk1 V c 3 t) (iblk1 V c 1 t) (iblk1 V c 5 t) (iblk1 V c 4 t) (iblk1 V c 6 t) e h).trans ?_
  refine Eq.trans ?_ (Cert.ReferenceIdeal.Stages.msg_apply x0 x1 (V c main_arg2) x4 x5 x6 (V c main_arg7) x8 (V c main_arg9) E h).symm
  rw [read_bc V c t h]
  refine congrArg (· + V c main_arg9 (ix1 h)) (congrArg₂ (· + ·) (Finset.sum_congr rfl fun k _ => ?_) (Finset.sum_congr rfl fun k _ => ?_))
  · rw [read_s V c t e k E rfl, read_wn V c t k h, hs, hwn]
  · rw [Cert.ReferenceIdeal.Stages.edgeEmb_apply (V c main_arg2) x6 (V c main_arg7) E k, read_be V c t k, read_wc V c t k h, hwc]
    refine congrArg (fun s => max (s + V c main_arg7 (ix1 k)) (Ideal.ofBits .f32 0x00000000#32)
      * Cert.ReferenceIdeal.Read.val_main_v27 (F := Ideal) x8 (ix2 k h)) (Finset.sum_congr rfl fun j _ => ?_)
    rw [read_a V c t e j E rfl, read_we V c t j k, hwe]

omit hs hwe hwc hwn in
/-- An index of the result array is in point t's block iff each coordinate is in the block's range on its axis. -/
theorem mem_blk (t : Fin cfg1.N) (i : S1600000x64.Idx) :
    i ∈ ((cfg1.win 7).blk t).view.set ↔ ∀ a : Fin 2, win1_7.index t a * S6400x64.size a ≤ (i a).val ∧ (i a).val < win1_7.index t a * S6400x64.size a + S6400x64.size a := by
  show i ∈ ((View.whole main_v12).slice (win1_7.rect t)).set ↔ _
  rw [View.set_slice_whole, Rect.mem_set_unit]
  exact Iff.rfl

omit hs hwe hwc hwn in
/-- The 250 row blocks cover the result array: row r lies in block r / 6400. -/
theorem cover (i : S1600000x64.Idx) : ∃ t : Fin cfg1.N, (cfg1.win 7).flush t = true ∧ i ∈ ((cfg1.win 7).blk t).view.set := by
  have hi0 : (i 0).val < 1600000 := (i 0).isLt
  have hi1 : (i 1).val < 64 := (i 1).isLt
  obtain ⟨t, ht⟩ := idx_onto ⟨(i 0).val / 6400, by omega⟩
  have q0 : win1_7.index t (0 : Fin 2) = (i 0).val / 6400 := congrFun ht 0
  have q1 : win1_7.index t (1 : Fin 2) = 0 := congrFun ht 1
  refine ⟨t, flush1_7 t, ?_⟩
  rw [mem_blk]
  intro a
  match a with
  | ⟨0, _⟩ => show win1_7.index t (0 : Fin 2) * 6400 ≤ (i 0).val ∧ (i 0).val < win1_7.index t (0 : Fin 2) * 6400 + 6400; omega
  | ⟨1, _⟩ => show win1_7.index t (1 : Fin 2) * 64 ≤ (i 1).val ∧ (i 1).val < win1_7.index t (1 : Fin 2) * 64 + 64; omega

/-- THE ARRAY the pipeline leaves is the reference's message array of the arrays it reads. -/
theorem final :
    (dat1 V c).arrAt 7 cfg1.N
      = Cert.ReferenceIdeal.Read.val_main_v32 (F := Ideal) x0 x1 (V c main_arg2) x4 x5 x6 (V c main_arg7) x8 (V c main_arg9) :=
  (dat1 V c).arrAt_eq_of_cover 7 _ (fun t _ => flushed_eq V c x0 x1 x4 x5 x6 x8 hs hwe hwc hwn t) cover

end Final

end Cert.KernelIdeal.EdgeRegion

end
-- ==== Proof.LibTakeFill.lean ====
/-
  jnp.take(table, idx, axis=0) in its default "fill" mode, against the bare gather table[idx].

  The fill-mode take wraps a negative index once (idx + N where idx < 0), gathers the rows at the wrapped
  indices, and then overwrites with a fill value every row whose wrapped index is outside [0, N - 1]: the row's
  in-range bit is (w ≥ 0) and (w ≤ N - 1), and-reduced over the index column's unit axis and broadcast along the row.
  When every index word already lies in [0, N) as a signed number, no index is wrapped, every in-range bit is one, and
  the result is the gather itself, whatever the fill value is. Stated for any sizes and any element type:

  * `foldl_andi_ones`, `reduce_andi_ones`: an and-reduction of ones from one is one;
  * `select_bcast_ones`: a select under a broadcast mask of ones keeps its first branch;
  * `wrap_word`, `inrange_word`: the two facts about one index word;
  * `wrapped_eq`: the wrapped index vector is the index vector;
  * `mask_ones`: every in-range bit is one;
  * `take_fill_eq_gather`: the masked gather is the gather.
-/
import Idealize.ShloMosaic.Lib.StableHlo.Predicate
import Idealize.ShloMosaic.Lib.Affine
import Idealize.ShloMosaic.Lib.ValueIdx

namespace TakeFill

open Idealize.ShloMosaic Idealize.ShloMosaic.StableHlo.Predicate

/-- A left fold by `and` over one-bit words that are all one, started at one, is one. -/
theorem foldl_andi_ones {ι : Type} (f : ι → BitVec 1) (hf : ∀ i, f i = 1#1) :
    ∀ (l : List ι) (init : BitVec 1), init = 1#1 → l.foldl (fun r n => IntOp.andi r (f n)) init = 1#1
  | [], _, h => h
  | a :: l, init, h => by
    rw [List.foldl_cons]
    exact foldl_andi_ones f hf l _ (by rw [h, hf a]; decide)

/-- A `stablehlo.reduce` by `and` of an array of ones, from an initial one, is one at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  rw [Host.reduce_eq_foldl]
  exact foldl_andi_ones x hx _ _ hi

/-- A select whose mask is a broadcast of ones is its first branch. -/
theorem select_bcast_ones {α : Type} {s t : Shape} (dims : Fin s.rank → Fin t.rank) (h : s.BroadcastsInDim t dims)
    (msk : IVec s 1) (hm : ∀ p, msk p = 1#1) (g fill : t.Idx → α) :
    select (broadcastInDim t dims h msk) g fill = g := by
  funext i
  show Scalar.select (broadcastInDim t dims h msk i) (g i) (fill i) = g i
  have e : broadcastInDim t dims h msk i = 1#1 := by unfold broadcastInDim; exact hm _
  rw [e]
  exact if_pos rfl

/-- An index word that is not negative is not wrapped. -/
theorem wrap_word (a b : BitVec 32) (h0 : IntOp.cmpi .sge a 0#32 = 1#1) :
    Scalar.select (IntOp.cmpi .slt a 0#32) (IntOp.addi a b) a = a := by
  have ha : (0#32 : BitVec 32).toInt ≤ a.toInt := IntOp.cmpi_sge.1 h0
  have hn : ¬ IntOp.cmpi .slt a 0#32 = 1#1 := fun h => by
    have := IntOp.cmpi_slt.1 h
    omega
  exact if_neg hn

/-- An index word in [0, N) passes both range tests of the fill-mode take: it is at least 0 and at most N - 1. -/
theorem inrange_word (a : BitVec 32) (N M : Nat) (hNM : M + 1 = N) (hN : N < 2 ^ 31)
    (h0 : IntOp.cmpi .sge a 0#32 = 1#1) (h1 : IntOp.cmpi .slt a (BitVec.ofNat 32 N) = 1#1) :
    IntOp.andi (IntOp.cmpi .sge a 0#32) (IntOp.cmpi .sle a (BitVec.ofNat 32 M)) = 1#1 := by
  refine IntOp.andi_eq_one.2 ⟨h0, IntOp.cmpi_sle.2 ?_⟩
  have hlt : a.toInt < (BitVec.ofNat 32 N).toInt := IntOp.cmpi_slt.1 h1
  rw [toInt_ofNat_small N hN] at hlt
  rw [toInt_ofNat_small M (by omega)]
  omega

section Vectors

variable {n : Nat} (idx : IVec ⟨1, ![n]⟩ 32)
  (hA : (⟨0, ![]⟩ : Shape).BroadcastsInDim ⟨1, ![n]⟩ ![])

/-- The negative-index wrap `where(idx < 0, idx + N, idx)` of a vector of index words none of which is negative is
    the vector. -/
theorem wrapped_eq (nn : BitVec 32) (hge : ∀ p, IntOp.cmpi .sge (idx p) 0#32 = 1#1) :
    select (cmpi .slt idx (broadcastInDim ⟨1, ![n]⟩ ![] hA (constantI ⟨0, ![]⟩ 32 0#32)))
      (addi idx (broadcastInDim ⟨1, ![n]⟩ ![] hA (constantI ⟨0, ![]⟩ 32 nn))) idx = idx := by
  funext p
  exact wrap_word (idx p) _ (hge p)

variable (hB : (⟨1, ![n]⟩ : Shape).BroadcastsInDim ⟨2, ![n, 1]⟩ ![0])
  (hC : (⟨0, ![]⟩ : Shape).BroadcastsInDim ⟨2, ![n, 1]⟩ ![])
  (hD : (⟨1, ![1]⟩ : Shape).BroadcastsInDim ⟨2, ![1, 1]⟩ ![1])
  (hE : (⟨2, ![1, 1]⟩ : Shape).BroadcastsInDim ⟨2, ![n, 1]⟩ ![0, 1])
  (hR : (⟨2, ![n, 1]⟩ : Shape).ReducesTo [1] ⟨1, ![n]⟩)
  (hu : 0 < (⟨0, ![]⟩ : Shape).numel)

/-- THE IN-RANGE BITS. For an index vector `w` whose words all lie in [0, N), the fill-mode take's row mask — the
    and-reduction over the unit axis of (column ≥ 0) and (column ≤ N - 1), the column being `w` as an [n, 1] array — is
    one at every row. -/
theorem mask_ones (w : IVec ⟨1, ![n]⟩ 32) (N M : Nat) (hNM : M + 1 = N) (hN : N < 2 ^ 31)
    (hge : ∀ p, IntOp.cmpi .sge (w p) 0#32 = 1#1) (hlt : ∀ p, IntOp.cmpi .slt (w p) (BitVec.ofNat 32 N) = 1#1) (p : (⟨1, ![n]⟩ : Shape).Idx) :
    Host.reduce IntOp.andi
      (andi (cmpi .sge (broadcastInDim ⟨2, ![n, 1]⟩ ![0] hB w) (broadcastInDim ⟨2, ![n, 1]⟩ ![] hC (constantI ⟨0, ![]⟩ 32 0#32)))
        (cmpi .sle (broadcastInDim ⟨2, ![n, 1]⟩ ![0] hB w)
          (broadcastInDim ⟨2, ![n, 1]⟩ ![0, 1] hE (broadcastInDim ⟨2, ![1, 1]⟩ ![1] hD (constantI ⟨1, ![1]⟩ 32 (BitVec.ofNat 32 M))))))
      (constantI ⟨0, ![]⟩ 1 1#1) hR hu p = 1#1 := by
  refine reduce_andi_ones _ _ hR hu (fun q => ?_) rfl p
  show IntOp.andi (IntOp.cmpi .sge (broadcastInDim ⟨2, ![n, 1]⟩ ![0] hB w q) 0#32)
    (IntOp.cmpi .sle (broadcastInDim ⟨2, ![n, 1]⟩ ![0] hB w q) (BitVec.ofNat 32 M)) = 1#1
  have e : ∃ k, broadcastInDim ⟨2, ![n, 1]⟩ ![0] hB w q = w k := ⟨_, rfl⟩
  obtain ⟨k, hk⟩ := e
  rw [hk]
  exact inrange_word (w k) N M hNM hN (hge k) (hlt k)

end Vectors

/-- THE FILL-MODE TAKE IS THE GATHER when every index word lies in [0, N): the gathered rows under the broadcast row
    mask, the fill value elsewhere, is the gathered rows. `col` is the index column the gather reads; the mask is
    computed from the same column. -/
theorem take_fill_eq_gather {α : Type} {n C : Nat} (N M : Nat) (hNM : M + 1 = N) (hN : N < 2 ^ 31)
    (hB : (⟨1, ![n]⟩ : Shape).BroadcastsInDim ⟨2, ![n, 1]⟩ ![0])
    (hC : (⟨0, ![]⟩ : Shape).BroadcastsInDim ⟨2, ![n, 1]⟩ ![])
    (hD : (⟨1, ![1]⟩ : Shape).BroadcastsInDim ⟨2, ![1, 1]⟩ ![1])
    (hE : (⟨2, ![1, 1]⟩ : Shape).BroadcastsInDim ⟨2, ![n, 1]⟩ ![0, 1])
    (hR : (⟨2, ![n, 1]⟩ : Shape).ReducesTo [1] ⟨1, ![n]⟩)
    (hu : 0 < (⟨0, ![]⟩ : Shape).numel)
    (hG : (⟨1, ![n]⟩ : Shape).BroadcastsInDim ⟨2, ![n, C]⟩ ![0])
    (w : IVec ⟨1, ![n]⟩ 32)
    (hge : ∀ p, IntOp.cmpi .sge (w p) 0#32 = 1#1) (hlt : ∀ p, IntOp.cmpi .slt (w p) (BitVec.ofNat 32 N) = 1#1)
    (g fill : (⟨2, ![n, C]⟩ : Shape).Idx → α) :
    select (broadcastInDim ⟨2, ![n, C]⟩ ![0] hG
      (Host.reduce IntOp.andi
        (andi (cmpi .sge (broadcastInDim ⟨2, ![n, 1]⟩ ![0] hB w) (broadcastInDim ⟨2, ![n, 1]⟩ ![] hC (constantI ⟨0, ![]⟩ 32 0#32)))
          (cmpi .sle (broadcastInDim ⟨2, ![n, 1]⟩ ![0] hB w)
            (broadcastInDim ⟨2, ![n, 1]⟩ ![0, 1] hE (broadcastInDim ⟨2, ![1, 1]⟩ ![1] hD (constantI ⟨1, ![1]⟩ 32 (BitVec.ofNat 32 M))))))
        (constantI ⟨0, ![]⟩ 1 1#1) hR hu)) g fill = g :=
  select_bcast_ones _ hG _ (mask_ones hB hC hD hE hR hu w N M hNM hN hge hlt) g fill

end TakeFill
-- ==== Proof.TakeOps.lean ====
/-
  The two fill-mode takes of the program, each as the list of its 23 host operations spelt with the plain builders:
  the wrap of negative indices, the index column, the two range tests and their conjunction, the and-reduction over
  the column's unit axis, the gather, the mask broadcast along the rows, the fill value, the select.
-/
import proofs.«425125_j17540646437558_1_alg».proof.Proof.Gen.KernelIdeal.Launch
import Idealize.ShloMosaic.PureOps.Ideal

noncomputable section

namespace Cert.KernelIdeal.TakeOps

open Cert.KernelIdeal Cert.KernelIdeal.Gen Idealize.ShloMosaic Idealize.ShloMosaic.TcCoe Idealize.SL.Sem

/-- The take of the node embedding at the 1600000 source indices. -/
abbrev takeOpsE : List (HloOp τ sig (Elt Ideal)) :=
  [ StableHlo.nullary main_call0_c ((constantI S_ 32 0#32) : (⟨S_, .i32⟩ : BufTy).Contents (Elt Ideal)),
    StableHlo.unary main_call0_c main_call0_v0 ((broadcastInDim S1600000 ![] bcast_S_S1600000) : (⟨S_, .i32⟩ : BufTy).Contents (Elt Ideal) → (⟨S1600000, .i32⟩ : BufTy).Contents (Elt Ideal)),
    StableHlo.binary main_v1 main_call0_v0 main_call0_v1 ((cmpi .slt) : (⟨S1600000, .i32⟩ : BufTy).Contents (Elt Ideal) → (⟨S1600000, .i32⟩ : BufTy).Contents (Elt Ideal) → (⟨S1600000, .i1⟩ : BufTy).Contents (Elt Ideal)),
    StableHlo.nullary main_call0_c_0 ((constantI S_ 32 100000#32) : (⟨S_, .i32⟩ : BufTy).Contents (Elt Ideal)),
    StableHlo.unary main_call0_c_0 main_call0_v2 ((broadcastInDim S1600000 ![] bcast_S_S1600000) : (⟨S_, .i32⟩ : BufTy).Contents (Elt Ideal) → (⟨S1600000, .i32⟩ : BufTy).Contents (Elt Ideal)),
    StableHlo.binary main_v1 main_call0_v2 main_call0_v3 (addi : (⟨S1600000, .i32⟩ : BufTy).Contents (Elt Ideal) → (⟨S1600000, .i32⟩ : BufTy).Contents (Elt Ideal) → (⟨S1600000, .i32⟩ : BufTy).Contents (Elt Ideal)),
    StableHlo.ternary main_call0_v1 main_call0_v3 main_v1 main_call0_v4 (select : (⟨S1600000, .i1⟩ : BufTy).Contents (Elt Ideal) → (⟨S1600000, .i32⟩ : BufTy).Contents (Elt Ideal) → (⟨S1600000, .i32⟩ : BufTy).Contents (Elt Ideal) → (⟨S1600000, .i32⟩ : BufTy).Contents (Elt Ideal)),
    StableHlo.unary main_call0_v4 main_call0_v5 ((broadcastInDim S1600000x1 ![0] bcast_S1600000_S1600000x1_0) : (⟨S1600000, .i32⟩ : BufTy).Contents (Elt Ideal) → (⟨S1600000x1, .i32⟩ : BufTy).Contents (Elt Ideal)),
    StableHlo.nullary main_call0_c_1 ((constantI S1 32 99999#32) : (⟨S1, .i32⟩ : BufTy).Contents (Elt Ideal)),
    StableHlo.nullary main_call0_c_2 ((constantI S_ 32 0#32) : (⟨S_, .i32⟩ : BufTy).Contents (Elt Ideal)),
    StableHlo.unary main_call0_c_2 main_call0_v6 ((broadcastInDim S1600000x1 ![] bcast_S_S1600000x1) : (⟨S_, .i32⟩ : BufTy).Contents (Elt Ideal) → (⟨S1600000x1, .i32⟩ : BufTy).Contents (Elt Ideal)),
    StableHlo.binary main_call0_v5 main_call0_v6 main_call0_v7 ((cmpi .sge) : (⟨S1600000x1, .i32⟩ : BufTy).Contents (Elt Ideal) → (⟨S1600000x1, .i32⟩ : BufTy).Contents (Elt Ideal) → (⟨S1600000x1, .i1⟩ : BufTy).Contents (Elt Ideal)),
    StableHlo.unary main_call0_c_1 main_call0_v8 ((broadcastInDim S1x1 ![1] bcast_S1_S1x1_1) : (⟨S1, .i32⟩ : BufTy).Contents (Elt Ideal) → (⟨S1x1, .i32⟩ : BufTy).Contents (Elt Ideal)),
    StableHlo.unary main_call0_v8 main_call0_v9 ((broadcastInDim S1600000x1 ![0, 1] bcast_S1x1_S1600000x1_0_1) : (⟨S1x1, .i32⟩ : BufTy).Contents (Elt Ideal) → (⟨S1600000x1, .i32⟩ : BufTy).Contents (Elt Ideal)),
    StableHlo.binary main_call0_v5 main_call0_v9 main_call0_v10 ((cmpi .sle) : (⟨S1600000x1, .i32⟩ : BufTy).Contents (Elt Ideal) → (⟨S1600000x1, .i32⟩ : BufTy).Contents (Elt Ideal) → (⟨S1600000x1, .i1⟩ : BufTy).Contents (Elt Ideal)),
    StableHlo.binary main_call0_v7 main_call0_v10 main_call0_v11 (andi : (⟨S1600000x1, .i1⟩ : BufTy).Contents (Elt Ideal) → (⟨S1600000x1, .i1⟩ : BufTy).Contents (Elt Ideal) → (⟨S1600000x1, .i1⟩ : BufTy).Contents (Elt Ideal)),
    StableHlo.nullary main_call0_c_3 ((constantI S_ 1 1#1) : (⟨S_, .i1⟩ : BufTy).Contents (Elt Ideal)),
    StableHlo.binary main_call0_v11 main_call0_c_3 main_call0_v12 ((fun x v => Host.reduce IntOp.andi x v reducesTo_S1600000x1_S1600000_d1 h_S_) : (⟨S1600000x1, .i1⟩ : BufTy).Contents (Elt Ideal) → (⟨S_, .i1⟩ : BufTy).Contents (Elt Ideal) → (⟨S1600000, .i1⟩ : BufTy).Contents (Elt Ideal)),
    StableHlo.binary main_v10 main_call0_v5 main_call0_v13 ((fun x i => Host.gather gather_S100000x64_S1600000x1_S1600000x64_1_0_n_n_0_1_164 x i) : (⟨S100000x64, .f32⟩ : BufTy).Contents (Elt Ideal) → (⟨S1600000x1, .i32⟩ : BufTy).Contents (Elt Ideal) → (⟨S1600000x64, .f32⟩ : BufTy).Contents (Elt Ideal)),
    StableHlo.unary main_call0_v12 main_call0_v14 ((broadcastInDim S1600000x64 ![0] bcast_S1600000_S1600000x64_0) : (⟨S1600000, .i1⟩ : BufTy).Contents (Elt Ideal) → (⟨S1600000x64, .i1⟩ : BufTy).Contents (Elt Ideal)),
    StableHlo.nullary main_call0_cst ((constant (F := Ideal) S_ .f32 0x7FC00000#32) : (⟨S_, .f32⟩ : BufTy).Contents (Elt Ideal)),
    StableHlo.unary main_call0_cst main_call0_v15 ((broadcastInDim S1600000x64 ![] bcast_S_S1600000x64) : (⟨S_, .f32⟩ : BufTy).Contents (Elt Ideal) → (⟨S1600000x64, .f32⟩ : BufTy).Contents (Elt Ideal)),
    StableHlo.ternary main_call0_v14 main_call0_v13 main_call0_v15 main_v11 (select : (⟨S1600000x64, .i1⟩ : BufTy).Contents (Elt Ideal) → (⟨S1600000x64, .f32⟩ : BufTy).Contents (Elt Ideal) → (⟨S1600000x64, .f32⟩ : BufTy).Contents (Elt Ideal) → (⟨S1600000x64, .f32⟩ : BufTy).Contents (Elt Ideal)) ]

/-- The take of the updated node embedding at the 10000 post indices. -/
abbrev takeOpsP : List (HloOp τ sig (Elt Ideal)) :=
  [ StableHlo.nullary main_call1_c ((constantI S_ 32 0#32) : (⟨S_, .i32⟩ : BufTy).Contents (Elt Ideal)),
    StableHlo.unary main_call1_c main_call1_v0 ((broadcastInDim S10000 ![] bcast_S_S10000) : (⟨S_, .i32⟩ : BufTy).Contents (Elt Ideal) → (⟨S10000, .i32⟩ : BufTy).Contents (Elt Ideal)),
    StableHlo.binary main_arg3 main_call1_v0 main_call1_v1 ((cmpi .slt) : (⟨S10000, .i32⟩ : BufTy).Contents (Elt Ideal) → (⟨S10000, .i32⟩ : BufTy).Contents (Elt Ideal) → (⟨S10000, .i1⟩ : BufTy).Contents (Elt Ideal)),
    StableHlo.nullary main_call1_c_0 ((constantI S_ 32 100000#32) : (⟨S_, .i32⟩ : BufTy).Contents (Elt Ideal)),
    StableHlo.unary main_call1_c_0 main_call1_v2 ((broadcastInDim S10000 ![] bcast_S_S10000) : (⟨S_, .i32⟩ : BufTy).Contents (Elt Ideal) → (⟨S10000, .i32⟩ : BufTy).Contents (Elt Ideal)),
    StableHlo.binary main_arg3 main_call1_v2 main_call1_v3 (addi : (⟨S10000, .i32⟩ : BufTy).Contents (Elt Ideal) → (⟨S10000, .i32⟩ : BufTy).Contents (Elt Ideal) → (⟨S10000, .i32⟩ : BufTy).Contents (Elt Ideal)),
    StableHlo.ternary main_call1_v1 main_call1_v3 main_arg3 main_call1_v4 (select : (⟨S10000, .i1⟩ : BufTy).Contents (Elt Ideal) → (⟨S10000, .i32⟩ : BufTy).Contents (Elt Ideal) → (⟨S10000, .i32⟩ : BufTy).Contents (Elt Ideal) → (⟨S10000, .i32⟩ : BufTy).Contents (Elt Ideal)),
    StableHlo.unary main_call1_v4 main_call1_v5 ((broadcastInDim S10000x1 ![0] bcast_S10000_S10000x1_0) : (⟨S10000, .i32⟩ : BufTy).Contents (Elt Ideal) → (⟨S10000x1, .i32⟩ : BufTy).Contents (Elt Ideal)),
    StableHlo.nullary main_call1_c_1 ((constantI S1 32 99999#32) : (⟨S1, .i32⟩ : BufTy).Contents (Elt Ideal)),
    StableHlo.nullary main_call1_c_2 ((constantI S_ 32 0#32) : (⟨S_, .i32⟩ : BufTy).Contents (Elt Ideal)),
    StableHlo.unary main_call1_c_2 main_call1_v6 ((broadcastInDim S10000x1 ![] bcast_S_S10000x1) : (⟨S_, .i32⟩ : BufTy).Contents (Elt Ideal) → (⟨S10000x1, .i32⟩ : BufTy).Contents (Elt Ideal)),
    StableHlo.binary main_call1_v5 main_call1_v6 main_call1_v7 ((cmpi .sge) : (⟨S10000x1, .i32⟩ : BufTy).Contents (Elt Ideal) → (⟨S10000x1, .i32⟩ : BufTy).Contents (Elt Ideal) → (⟨S10000x1, .i1⟩ : BufTy).Contents (Elt Ideal)),
    StableHlo.unary main_call1_c_1 main_call1_v8 ((broadcastInDim S1x1 ![1] bcast_S1_S1x1_1) : (⟨S1, .i32⟩ : BufTy).Contents (Elt Ideal) → (⟨S1x1, .i32⟩ : BufTy).Contents (Elt Ideal)),
    StableHlo.unary main_call1_v8 main_call1_v9 ((broadcastInDim S10000x1 ![0, 1] bcast_S1x1_S10000x1_0_1) : (⟨S1x1, .i32⟩ : BufTy).Contents (Elt Ideal) → (⟨S10000x1, .i32⟩ : BufTy).Contents (Elt Ideal)),
    StableHlo.binary main_call1_v5 main_call1_v9 main_call1_v10 ((cmpi .sle) : (⟨S10000x1, .i32⟩ : BufTy).Contents (Elt Ideal) → (⟨S10000x1, .i32⟩ : BufTy).Contents (Elt Ideal) → (⟨S10000x1, .i1⟩ : BufTy).Contents (Elt Ideal)),
    StableHlo.binary main_call1_v7 main_call1_v10 main_call1_v11 (andi : (⟨S10000x1, .i1⟩ : BufTy).Contents (Elt Ideal) → (⟨S10000x1, .i1⟩ : BufTy).Contents (Elt Ideal) → (⟨S10000x1, .i1⟩ : BufTy).Contents (Elt Ideal)),
    StableHlo.nullary main_call1_c_3 ((constantI S_ 1 1#1) : (⟨S_, .i1⟩ : BufTy).Contents (Elt Ideal)),
    StableHlo.binary main_call1_v11 main_call1_c_3 main_call1_v12 ((fun x v => Host.reduce IntOp.andi x v reducesTo_S10000x1_S10000_d1 h_S_) : (⟨S10000x1, .i1⟩ : BufTy).Contents (Elt Ideal) → (⟨S_, .i1⟩ : BufTy).Contents (Elt Ideal) → (⟨S10000, .i1⟩ : BufTy).Contents (Elt Ideal)),
    StableHlo.binary main_v16 main_call1_v5 main_call1_v13 ((fun x i => Host.gather gather_S100000x64_S10000x1_S10000x64_1_0_n_n_0_1_164 x i) : (⟨S100000x64, .f32⟩ : BufTy).Contents (Elt Ideal) → (⟨S10000x1, .i32⟩ : BufTy).Contents (Elt Ideal) → (⟨S10000x64, .f32⟩ : BufTy).Contents (Elt Ideal)),
    StableHlo.unary main_call1_v12 main_call1_v14 ((broadcastInDim S10000x64 ![0] bcast_S10000_S10000x64_0) : (⟨S10000, .i1⟩ : BufTy).Contents (Elt Ideal) → (⟨S10000x64, .i1⟩ : BufTy).Contents (Elt Ideal)),
    StableHlo.nullary main_call1_cst ((constant (F := Ideal) S_ .f32 0x7FC00000#32) : (⟨S_, .f32⟩ : BufTy).Contents (Elt Ideal)),
    StableHlo.unary main_call1_cst main_call1_v15 ((broadcastInDim S10000x64 ![] bcast_S_S10000x64) : (⟨S_, .f32⟩ : BufTy).Contents (Elt Ideal) → (⟨S10000x64, .f32⟩ : BufTy).Contents (Elt Ideal)),
    StableHlo.ternary main_call1_v14 main_call1_v13 main_call1_v15 main_v17 (select : (⟨S10000x64, .i1⟩ : BufTy).Contents (Elt Ideal) → (⟨S10000x64, .f32⟩ : BufTy).Contents (Elt Ideal) → (⟨S10000x64, .f32⟩ : BufTy).Contents (Elt Ideal) → (⟨S10000x64, .f32⟩ : BufTy).Contents (Elt Ideal)) ]

end Cert.KernelIdeal.TakeOps

end
-- ==== Proof.Stretches.lean ====
/-
  The host stretches of the kernel's program, each read once over arbitrary buffer contents.

  Between and around its two pipelines the program runs five stretches of host operations. Here each stretch is read
  at the buffers later code consumes, as a pure function of the contents `X` the stretch starts from:
  * the first stretch writes row 0 and row 1 of the edge-index array as vectors and the transposed weight matrices —
    the very arrays the reference computes for itself;
  * the second is the fill-mode take of the node embedding at the source indices (`takeE`);
  * the third is the scatter-add of the messages into a zero array at the destination indices, added to the node
    embedding;
  * the fourth is the fill-mode take of that sum at the post indices (`takeP`);
  * the fifth is the output layer: the row's product with the output weights, plus the bias, through
    1 / (1 + exp(−·)).
  A stretch leaves every buffer it does not write as it found it.
-/
import proofs.«425125_j17540646437558_1_alg».proof.Proof.Gen.KernelIdeal.Launch
import proofs.«425125_j17540646437558_1_alg».proof.Proof.TakeOps
import proofs.«425125_j17540646437558_1_alg».proof.Proof.Gen.ReferenceIdeal.Read
import Idealize.ShloMosaic.Lib.StableHlo.Run

set_option maxRecDepth 16384

noncomputable section

namespace Cert.KernelIdeal.Stretches

open Cert.KernelIdeal Cert.KernelIdeal.Gen Cert.KernelIdeal.TakeOps Cert.ReferenceIdeal.Read
open Idealize.ShloMosaic Idealize.ShloMosaic.TcCoe Idealize.SL.Sem Idealize.ShloMosaic.StableHlo

/-- Read one buffer after a literal list of host operations: the fold computed in one pass, what is left compared with
    the stated closed form. -/
macro "host_read" : tactic => `(tactic| (after_results_simp <;> rfl))

/-! ## The two fill-mode takes and the output layer, as the program spells them -/

/-- The source indices with negative ones wrapped once, as an [n, 1] column. -/
def colE (idx : IVec S1600000 32) : IVec S1600000x1 32 :=
  broadcastInDim S1600000x1 ![0] bcast_S1600000_S1600000x1_0
    (select (cmpi .slt idx (broadcastInDim S1600000 ![] bcast_S_S1600000 (constantI S_ 32 0#32)))
      (addi idx (broadcastInDim S1600000 ![] bcast_S_S1600000 (constantI S_ 32 100000#32))) idx)

/-- jnp.take(table, idx, axis=0) of a [100000, 64] table at 1600000 indices, fill mode: the gathered rows where the
    wrapped index is in [0, 99999], the fill value elsewhere. -/
def takeE (x : FVec Ideal S100000x64 .f32) (idx : IVec S1600000 32) : FVec Ideal S1600000x64 .f32 :=
  select (broadcastInDim S1600000x64 ![0] bcast_S1600000_S1600000x64_0
      (Host.reduce IntOp.andi
        (andi (cmpi .sge (colE idx) (broadcastInDim S1600000x1 ![] bcast_S_S1600000x1 (constantI S_ 32 0#32)))
          (cmpi .sle (colE idx)
            (broadcastInDim S1600000x1 ![0, 1] bcast_S1x1_S1600000x1_0_1 (broadcastInDim S1x1 ![1] bcast_S1_S1x1_1 (constantI S1 32 99999#32)))))
        (constantI S_ 1 1#1) reducesTo_S1600000x1_S1600000_d1 h_S_))
    (Host.gather gather_S100000x64_S1600000x1_S1600000x64_1_0_n_n_0_1_164 x (colE idx))
    (broadcastInDim S1600000x64 ![] bcast_S_S1600000x64 (constant (F := Ideal) S_ .f32 0x7FC00000#32))

/-- The post indices with negative ones wrapped once, as an [n, 1] column. -/
def colP (idx : IVec S10000 32) : IVec S10000x1 32 :=
  broadcastInDim S10000x1 ![0] bcast_S10000_S10000x1_0
    (select (cmpi .slt idx (broadcastInDim S10000 ![] bcast_S_S10000 (constantI S_ 32 0#32)))
      (addi idx (broadcastInDim S10000 ![] bcast_S_S10000 (constantI S_ 32 100000#32))) idx)

/-- The same take at 10000 indices. -/
def takeP (x : FVec Ideal S100000x64 .f32) (idx : IVec S10000 32) : FVec Ideal S10000x64 .f32 :=
  select (broadcastInDim S10000x64 ![0] bcast_S10000_S10000x64_0
      (Host.reduce IntOp.andi
        (andi (cmpi .sge (colP idx) (broadcastInDim S10000x1 ![] bcast_S_S10000x1 (constantI S_ 32 0#32)))
          (cmpi .sle (colP idx)
            (broadcastInDim S10000x1 ![0, 1] bcast_S1x1_S10000x1_0_1 (broadcastInDim S1x1 ![1] bcast_S1_S1x1_1 (constantI S1 32 99999#32)))))
        (constantI S_ 1 1#1) reducesTo_S10000x1_S10000_d1 h_S_))
    (Host.gather gather_S100000x64_S10000x1_S10000x64_1_0_n_n_0_1_164 x (colP idx))
    (broadcastInDim S10000x64 ![] bcast_S_S10000x64 (constant (F := Ideal) S_ .f32 0x7FC00000#32))

/-- The output layer on the gathered rows: 1 / (1 + exp(−(g · w_outᵀ + b_out))), one number per post. -/
def outLayer (g : FVec Ideal S10000x64 .f32) (w : FVec Ideal S1x64 .f32) (b : FVec Ideal S1 .f32) : FVec Ideal S10000 .f32 :=
  Host.divf (broadcastInDim S10000 ![] bcast_S_S10000 (constant (F := Ideal) S_ .f32 0x3F800000#32))
    (addf (broadcastInDim S10000 ![] bcast_S_S10000 (constant (F := Ideal) S_ .f32 0x3F800000#32))
      (Host.exp (Host.negf (shapeCast S10000
        (addf (Host.dotGeneral dot_S10000x64_S64x1_S10000x1_1_0_0_1_n_n none g (transpose S64x1 [1, 0] w transposes_S1x64_S64x1_1_0))
          (broadcastInDim S10000x1 ![0, 1] bcast_S1x1_S10000x1_0_1 (broadcastInDim S1x1 ![1] bcast_S1_S1x1_1 b)))
        shapeCasts_S10000x1_S10000))))

variable (X : Valuation τ sig (Elt Ideal))

/-! ## The first stretch: slices, reshapes, transposes of arguments -/

theorem ops0_v1 : StableHlo.after hostOps0 X (Proc.devRef .tc main_v1) = val_main_v13 (F := Ideal) (X (Proc.devRef .tc main_arg1)) := by host_read
theorem ops0_v3 : StableHlo.after hostOps0 X (Proc.devRef .tc main_v3) = val_main_v15 (F := Ideal) (X (Proc.devRef .tc main_arg1)) := by host_read
theorem ops0_v4 : StableHlo.after hostOps0 X (Proc.devRef .tc main_v4) = val_main_v0 (F := Ideal) (X (Proc.devRef .tc main_arg4)) := by host_read
theorem ops0_v5 : StableHlo.after hostOps0 X (Proc.devRef .tc main_v5) = val_main_v6 (F := Ideal) (X (Proc.devRef .tc main_arg6)) := by host_read
theorem ops0_v7 : StableHlo.after hostOps0 X (Proc.devRef .tc main_v7) = val_main_v25 (F := Ideal) (X (Proc.devRef .tc main_arg8)) := by host_read
theorem ops0_v9 : StableHlo.after hostOps0 X (Proc.devRef .tc main_v9) = val_main_v27 (F := Ideal) (X (Proc.devRef .tc main_arg8)) := by host_read
theorem ops0_arg0 : StableHlo.after hostOps0 X (Proc.devRef .tc main_arg0) = X (Proc.devRef .tc main_arg0) := by host_read
theorem ops0_arg2 : StableHlo.after hostOps0 X (Proc.devRef .tc main_arg2) = X (Proc.devRef .tc main_arg2) := by host_read
theorem ops0_arg5 : StableHlo.after hostOps0 X (Proc.devRef .tc main_arg5) = X (Proc.devRef .tc main_arg5) := by host_read
theorem ops0_arg7 : StableHlo.after hostOps0 X (Proc.devRef .tc main_arg7) = X (Proc.devRef .tc main_arg7) := by host_read
theorem ops0_arg9 : StableHlo.after hostOps0 X (Proc.devRef .tc main_arg9) = X (Proc.devRef .tc main_arg9) := by host_read

/-! ## The second stretch: the take at the source indices -/

/-- The and-reduction of the second stretch spelt through typed references is the plain operation, whatever its
    function: the transports along a buffer's own type are identities. (Stated for an arbitrary function so that the
    reduction itself is never opened.) -/
theorem reduceE_plain (f : (⟨S1600000x1, .i1⟩ : BufTy).Contents (Elt Ideal) → (⟨S_, .i1⟩ : BufTy).Contents (Elt Ideal) → (⟨S1600000, .i1⟩ : BufTy).Contents (Elt Ideal)) :
    (StableHlo.TRef.binary (.of main_call0_v11 : StableHlo.TRef sig ⟨S1600000x1, .i1⟩) (.of main_call0_c_3 : StableHlo.TRef sig ⟨S_, .i1⟩)
        (.of main_call0_v12 : StableHlo.TRef sig ⟨S1600000, .i1⟩) f : HloOp τ sig (Elt Ideal))
      = StableHlo.binary main_call0_v11 main_call0_c_3 main_call0_v12 f := rfl

/-- The second stretch is, operation by operation, the list of plain operations: a called function's operations are
    spelt through typed references, whose transports along a buffer's own type are identities. -/
theorem hostOps1_eq : (hostOps1 : List (HloOp τ sig (Elt Ideal))) = takeOpsE := by
  iterate 17 (refine congrArg₂ List.cons rfl ?_)
  refine congrArg₂ List.cons (reduceE_plain _) ?_
  iterate 5 (refine congrArg₂ List.cons rfl ?_)
  rfl

set_option maxHeartbeats 8000000 in
theorem ops1_v11 : StableHlo.after hostOps1 X (Proc.devRef .tc main_v11)
    = takeE (X (Proc.devRef .tc main_v10)) (X (Proc.devRef .tc main_v1)) := by
  rw [hostOps1_eq]
  after_results_simp
  unfold takeE colE
  with_reducible rfl
theorem ops1_arg2 : StableHlo.after hostOps1 X (Proc.devRef .tc main_arg2) = X (Proc.devRef .tc main_arg2) := by host_read
theorem ops1_arg7 : StableHlo.after hostOps1 X (Proc.devRef .tc main_arg7) = X (Proc.devRef .tc main_arg7) := by host_read
theorem ops1_arg9 : StableHlo.after hostOps1 X (Proc.devRef .tc main_arg9) = X (Proc.devRef .tc main_arg9) := by host_read
theorem ops1_v3 : StableHlo.after hostOps1 X (Proc.devRef .tc main_v3) = X (Proc.devRef .tc main_v3) := by host_read
theorem ops1_v5 : StableHlo.after hostOps1 X (Proc.devRef .tc main_v5) = X (Proc.devRef .tc main_v5) := by host_read
theorem ops1_v7 : StableHlo.after hostOps1 X (Proc.devRef .tc main_v7) = X (Proc.devRef .tc main_v7) := by host_read
theorem ops1_v9 : StableHlo.after hostOps1 X (Proc.devRef .tc main_v9) = X (Proc.devRef .tc main_v9) := by host_read
theorem ops1_v10 : StableHlo.after hostOps1 X (Proc.devRef .tc main_v10) = X (Proc.devRef .tc main_v10) := by host_read

/-! ## The third stretch: the scatter-add and the sum -/

theorem ops2_v16 : StableHlo.after hostOps2 X (Proc.devRef .tc main_v16)
    = addf (X (Proc.devRef .tc main_v10))
        (Host.scatterAdd scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (X (Proc.devRef .tc main_v3)))
          (X (Proc.devRef .tc main_v12))) := by host_read
theorem ops2_arg3 : StableHlo.after hostOps2 X (Proc.devRef .tc main_arg3) = X (Proc.devRef .tc main_arg3) := by host_read

/-! ## The fourth stretch: the take at the post indices -/

/-- Likewise the fourth stretch's and-reduction. -/
theorem reduceP_plain (f : (⟨S10000x1, .i1⟩ : BufTy).Contents (Elt Ideal) → (⟨S_, .i1⟩ : BufTy).Contents (Elt Ideal) → (⟨S10000, .i1⟩ : BufTy).Contents (Elt Ideal)) :
    (StableHlo.TRef.binary (.of main_call1_v11 : StableHlo.TRef sig ⟨S10000x1, .i1⟩) (.of main_call1_c_3 : StableHlo.TRef sig ⟨S_, .i1⟩)
        (.of main_call1_v12 : StableHlo.TRef sig ⟨S10000, .i1⟩) f : HloOp τ sig (Elt Ideal))
      = StableHlo.binary main_call1_v11 main_call1_c_3 main_call1_v12 f := rfl

/-- Likewise the fourth stretch. -/
theorem hostOps2_1_eq : (hostOps2_1 : List (HloOp τ sig (Elt Ideal))) = takeOpsP := by
  iterate 17 (refine congrArg₂ List.cons rfl ?_)
  refine congrArg₂ List.cons (reduceP_plain _) ?_
  iterate 5 (refine congrArg₂ List.cons rfl ?_)
  rfl

set_option maxHeartbeats 8000000 in
theorem ops21_v17 : StableHlo.after hostOps2_1 X (Proc.devRef .tc main_v17)
    = takeP (X (Proc.devRef .tc main_v16)) (X (Proc.devRef .tc main_arg3)) := by
  rw [hostOps2_1_eq]
  after_results_simp
  unfold takeP colP
  with_reducible rfl
theorem ops21_arg3 : StableHlo.after hostOps2_1 X (Proc.devRef .tc main_arg3) = X (Proc.devRef .tc main_arg3) := by host_read
theorem ops21_arg10 : StableHlo.after hostOps2_1 X (Proc.devRef .tc main_arg10) = X (Proc.devRef .tc main_arg10) := by host_read
theorem ops21_arg11 : StableHlo.after hostOps2_1 X (Proc.devRef .tc main_arg11) = X (Proc.devRef .tc main_arg11) := by host_read

/-! ## The fifth stretch: the output layer -/

theorem ops22_v29 : StableHlo.after hostOps2_2 X (Proc.devRef .tc main_v29)
    = outLayer (X (Proc.devRef .tc main_v17)) (X (Proc.devRef .tc main_arg10)) (X (Proc.devRef .tc main_arg11)) := by host_read
theorem ops22_arg3 : StableHlo.after hostOps2_2 X (Proc.devRef .tc main_arg3) = X (Proc.devRef .tc main_arg3) := by host_read
theorem ops22_arg10 : StableHlo.after hostOps2_2 X (Proc.devRef .tc main_arg10) = X (Proc.devRef .tc main_arg10) := by host_read
theorem ops22_arg11 : StableHlo.after hostOps2_2 X (Proc.devRef .tc main_arg11) = X (Proc.devRef .tc main_arg11) := by host_read

end Cert.KernelIdeal.Stretches

end
-- ==== Proof.KernelValue.lean ====
/-
  The kernel program's result as the reference's function of the launch arguments.

  Boundary by boundary through the program — first host stretch, node pipeline, the take at the source indices, edge
  pipeline, scatter-add and sum, the take at the post indices, output layer — each buffer that later code reads is
  identified with the stage of the reference that computes the same array from the launch arguments:
  * the node pipeline's array is the reference's node embedding (the rows tile the array);
  * when every source index lies in [0, 100000) the fill-mode take never fills, so the gathered rows are the
    reference's gather (which only wraps and clamps);
  * the edge pipeline's array is the reference's message array;
  * the scatter-add and the sum are the same host operations on equal operands;
  * when every post index lies in [0, 100000) the second take is the reference's second gather;
  * the output layer is the same host operations on equal operands.
  So the result buffer ends at the reference's result term.
-/
import proofs.«425125_j17540646437558_1_alg».proof.Proof.RunValue
import proofs.«425125_j17540646437558_1_alg».proof.Proof.NodeRegion
import proofs.«425125_j17540646437558_1_alg».proof.Proof.EdgeRegion
import proofs.«425125_j17540646437558_1_alg».proof.Proof.LibTakeFill
import proofs.«425125_j17540646437558_1_alg».proof.Proof.Stretches

set_option maxRecDepth 16384

noncomputable section

namespace Cert.KernelIdeal.Value

open Cert.KernelIdeal Cert.KernelIdeal.Gen Cert.KernelIdeal.Stretches Cert.ReferenceIdeal.Read
open Idealize.ShloMosaic Idealize.ShloMosaic.TcCoe Idealize.SL.Sem Idealize.ShloMosaic.StableHlo

/-! ## The two takes under the range facts -/

/-- With every index in [0, 100000) the fill-mode take at the source indices is the plain gather at the wrapped column. -/
theorem takeE_eq (x : FVec Ideal S100000x64 .f32) (idx : IVec S1600000 32)
    (hge : ∀ p, IntOp.cmpi .sge (idx p) 0#32 = 1#1) (hlt : ∀ p, IntOp.cmpi .slt (idx p) 100000#32 = 1#1) :
    takeE x idx = Host.gather gather_S100000x64_S1600000x1_S1600000x64_1_0_n_n_0_1_164 x (colE idx) := by
  have hw := TakeFill.wrapped_eq idx bcast_S_S1600000 100000#32 hge
  unfold takeE colE
  refine TakeFill.take_fill_eq_gather 100000 99999 rfl (by norm_num) _ _ _ _ _ _ _ _ ?_ ?_ _ _
  · intro p; rw [hw]; exact hge p
  · intro p; rw [hw]; exact hlt p

/-- Likewise at the post indices. -/
theorem takeP_eq (x : FVec Ideal S100000x64 .f32) (idx : IVec S10000 32)
    (hge : ∀ p, IntOp.cmpi .sge (idx p) 0#32 = 1#1) (hlt : ∀ p, IntOp.cmpi .slt (idx p) 100000#32 = 1#1) :
    takeP x idx = Host.gather gather_S100000x64_S10000x1_S10000x64_1_0_n_n_0_1_164 x (colP idx) := by
  have hw := TakeFill.wrapped_eq idx bcast_S_S10000 100000#32 hge
  unfold takeP colP
  refine TakeFill.take_fill_eq_gather 100000 99999 rfl (by norm_num) _ _ _ _ _ _ _ _ ?_ ?_ _ _
  · intro p; rw [hw]; exact hge p
  · intro p; rw [hw]; exact hlt p

variable (m : (ℓ : Loc nD τ sig) → Buf (Elt Ideal) ℓ) (ρ : Dev nD → PrngReg) (c : Dev nD)

/-! ## At the node pipeline's entry -/

theorem V1_v4 : V1 m ρ c main_v4 = val_main_v0 (F := Ideal) (m ((c : Thread nD τ).loc main_arg4)) := ops0_v4 (W0 m ρ c)
theorem V1_arg0 : V1 m ρ c main_arg0 = (m ((c : Thread nD τ).loc main_arg0)) := ops0_arg0 (W0 m ρ c)
theorem V1_arg5 : V1 m ρ c main_arg5 = (m ((c : Thread nD τ).loc main_arg5)) := ops0_arg5 (W0 m ρ c)

/-! ## At the node pipeline's exit -/

/-- The node pipeline's array is the reference's node embedding of the launch arguments. -/
theorem W2_v10 : W2 m ρ c (Proc.devRef .tc main_v10) = val_main_v5 (F := Ideal) (m ((c : Thread nD τ).loc main_arg0)) (m ((c : Thread nD τ).loc main_arg4)) (m ((c : Thread nD τ).loc main_arg5)) := by
  refine (W2_arr m ρ c 3).trans ?_
  rw [NodeRegion.final (V1 m ρ) c (m ((c : Thread nD τ).loc main_arg4)) (V1_v4 m ρ c), V1_arg0 m ρ c, V1_arg5 m ρ c]

theorem W2_v1 : W2 m ρ c (Proc.devRef .tc main_v1) = val_main_v13 (F := Ideal) (m ((c : Thread nD τ).loc main_arg1)) :=
  (W2_of_ne m ρ c main_v1 (by decide)).trans (ops0_v1 (W0 m ρ c))
theorem W2_v3 : W2 m ρ c (Proc.devRef .tc main_v3) = val_main_v15 (F := Ideal) (m ((c : Thread nD τ).loc main_arg1)) :=
  (W2_of_ne m ρ c main_v3 (by decide)).trans (ops0_v3 (W0 m ρ c))
theorem W2_v5 : W2 m ρ c (Proc.devRef .tc main_v5) = val_main_v6 (F := Ideal) (m ((c : Thread nD τ).loc main_arg6)) :=
  (W2_of_ne m ρ c main_v5 (by decide)).trans (ops0_v5 (W0 m ρ c))
theorem W2_v7 : W2 m ρ c (Proc.devRef .tc main_v7) = val_main_v25 (F := Ideal) (m ((c : Thread nD τ).loc main_arg8)) :=
  (W2_of_ne m ρ c main_v7 (by decide)).trans (ops0_v7 (W0 m ρ c))
theorem W2_v9 : W2 m ρ c (Proc.devRef .tc main_v9) = val_main_v27 (F := Ideal) (m ((c : Thread nD τ).loc main_arg8)) :=
  (W2_of_ne m ρ c main_v9 (by decide)).trans (ops0_v9 (W0 m ρ c))
theorem W2_arg2 : W2 m ρ c (Proc.devRef .tc main_arg2) = (m ((c : Thread nD τ).loc main_arg2)) :=
  (W2_of_ne m ρ c main_arg2 (by decide)).trans (ops0_arg2 (W0 m ρ c))
theorem W2_arg7 : W2 m ρ c (Proc.devRef .tc main_arg7) = (m ((c : Thread nD τ).loc main_arg7)) :=
  (W2_of_ne m ρ c main_arg7 (by decide)).trans (ops0_arg7 (W0 m ρ c))
theorem W2_arg9 : W2 m ρ c (Proc.devRef .tc main_arg9) = (m ((c : Thread nD τ).loc main_arg9)) :=
  (W2_of_ne m ρ c main_arg9 (by decide)).trans (ops0_arg9 (W0 m ρ c))

/-! ## At the edge pipeline's entry -/

theorem V3_v5 : V3 m ρ c main_v5 = val_main_v6 (F := Ideal) (m ((c : Thread nD τ).loc main_arg6)) := (ops1_v5 (W2 m ρ c)).trans (W2_v5 m ρ c)
theorem V3_v7 : V3 m ρ c main_v7 = val_main_v25 (F := Ideal) (m ((c : Thread nD τ).loc main_arg8)) := (ops1_v7 (W2 m ρ c)).trans (W2_v7 m ρ c)
theorem V3_v9 : V3 m ρ c main_v9 = val_main_v27 (F := Ideal) (m ((c : Thread nD τ).loc main_arg8)) := (ops1_v9 (W2 m ρ c)).trans (W2_v9 m ρ c)
theorem V3_arg2 : V3 m ρ c main_arg2 = (m ((c : Thread nD τ).loc main_arg2)) := (ops1_arg2 (W2 m ρ c)).trans (W2_arg2 m ρ c)
theorem V3_arg7 : V3 m ρ c main_arg7 = (m ((c : Thread nD τ).loc main_arg7)) := (ops1_arg7 (W2 m ρ c)).trans (W2_arg7 m ρ c)
theorem V3_arg9 : V3 m ρ c main_arg9 = (m ((c : Thread nD τ).loc main_arg9)) := (ops1_arg9 (W2 m ρ c)).trans (W2_arg9 m ρ c)

section Ranges

variable (hgeE : ∀ p, IntOp.cmpi .sge (val_main_v13 (F := Ideal) (m ((c : Thread nD τ).loc main_arg1)) p) 0#32 = 1#1)
  (hltE : ∀ p, IntOp.cmpi .slt (val_main_v13 (F := Ideal) (m ((c : Thread nD τ).loc main_arg1)) p) 100000#32 = 1#1)

include hgeE hltE

/-- The gathered source-node rows are the reference's. -/
theorem V3_v11 : V3 m ρ c main_v11 = val_main_v24 (F := Ideal) (m ((c : Thread nD τ).loc main_arg0)) (m ((c : Thread nD τ).loc main_arg1)) (m ((c : Thread nD τ).loc main_arg4)) (m ((c : Thread nD τ).loc main_arg5)) := by
  refine (ops1_v11 (W2 m ρ c)).trans ?_
  rw [W2_v10 m ρ c, W2_v1 m ρ c]
  exact (takeE_eq _ _ hgeE hltE).trans rfl

/-! ## At the edge pipeline's exit -/

/-- The edge pipeline's array is the reference's message array of the launch arguments. -/
theorem W4_v12 : W4 m ρ c (Proc.devRef .tc main_v12)
    = val_main_v32 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W4_arr m ρ c 7).trans ?_
  rw [EdgeRegion.final (V3 m ρ) c (m ((c : Thread nD τ).loc main_arg0)) (m ((c : Thread nD τ).loc main_arg1)) (m ((c : Thread nD τ).loc main_arg4)) (m ((c : Thread nD τ).loc main_arg5)) (m ((c : Thread nD τ).loc main_arg6)) (m ((c : Thread nD τ).loc main_arg8))
    (V3_v11 m ρ c hgeE hltE) (V3_v5 m ρ c) (V3_v9 m ρ c) (V3_v7 m ρ c), V3_arg2 m ρ c, V3_arg7 m ρ c, V3_arg9 m ρ c]

omit hgeE hltE in
theorem W4_v10 : W4 m ρ c (Proc.devRef .tc main_v10) = val_main_v5 (F := Ideal) (m ((c : Thread nD τ).loc main_arg0)) (m ((c : Thread nD τ).loc main_arg4)) (m ((c : Thread nD τ).loc main_arg5)) :=
  (W4_of_ne m ρ c main_v10 (by decide)).trans ((ops1_v10 (W2 m ρ c)).trans (W2_v10 m ρ c))
omit hgeE hltE in
theorem W4_v3 : W4 m ρ c (Proc.devRef .tc main_v3) = val_main_v15 (F := Ideal) (m ((c : Thread nD τ).loc main_arg1)) :=
  (W4_of_ne m ρ c main_v3 (by decide)).trans ((ops1_v3 (W2 m ρ c)).trans (W2_v3 m ρ c))

/-! ## The arguments at the later boundaries: no later stretch writes them -/

omit hgeE hltE in
theorem W6_arg10 : W6 m ρ c (Proc.devRef .tc main_arg10) = (m ((c : Thread nD τ).loc main_arg10)) :=
  (ops22_arg10 (W6 m ρ c)).symm.trans (W7_main_arg10 m ρ c)
omit hgeE hltE in
theorem W6_arg11 : W6 m ρ c (Proc.devRef .tc main_arg11) = (m ((c : Thread nD τ).loc main_arg11)) :=
  (ops22_arg11 (W6 m ρ c)).symm.trans (W7_main_arg11 m ρ c)
omit hgeE hltE in
theorem W5_arg3 : W5 m ρ c (Proc.devRef .tc main_arg3) = (m ((c : Thread nD τ).loc main_arg3)) :=
  (ops21_arg3 (W5 m ρ c)).symm.trans ((ops22_arg3 (W6 m ρ c)).symm.trans (W7_main_arg3 m ρ c))

/-! ## After the scatter-add -/

/-- The node embedding plus the scattered messages is the reference's. -/
theorem W5_v16 : W5 m ρ c (Proc.devRef .tc main_v16)
    = val_main_v36 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (ops2_v16 (W4 m ρ c)).trans ?_
  rw [W4_v10 m ρ c, W4_v3 m ρ c, W4_v12 m ρ c hgeE hltE]
  rfl

variable (hgeP : ∀ p, IntOp.cmpi .sge ((m ((c : Thread nD τ).loc main_arg3)) p) 0#32 = 1#1)
  (hltP : ∀ p, IntOp.cmpi .slt ((m ((c : Thread nD τ).loc main_arg3)) p) 100000#32 = 1#1)

include hgeP hltP

/-! ## After the take at the post indices -/

/-- The gathered post rows are the reference's. -/
theorem W6_v17 : W6 m ρ c (Proc.devRef .tc main_v17)
    = val_main_v43 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (ops21_v17 (W5 m ρ c)).trans ?_
  rw [W5_v16 m ρ c hgeE hltE, W5_arg3 m ρ c]
  exact (takeP_eq _ _ hgeP hltP).trans rfl

/-! ## The result -/

/-- THE RESULT BUFFER ends at the reference's result term of the launch arguments. -/
theorem result : W7 m ρ c (Proc.devRef .tc main_v29)
    = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (ops22_v29 (W6 m ρ c)).trans ?_
  rw [W6_v17 m ρ c hgeE hltE hgeP hltP, W6_arg10 m ρ c, W6_arg11 m ρ c]
  rfl

end Ranges

end Cert.KernelIdeal.Value

end
-- ==== Proof.PreRange.lean ====
/-
  What the precondition says of the two index inputs.

  The precondition is a conjunction whose last two conjuncts are
      all( (src ≥ 0) and (src < 100000) )   and   all( (post ≥ 0) and (post < 100000) ),
  src being row 0 of the [2, 1600000] edge-index array as a vector, post the [10000] vector of post indices. When the
  whole predicate is one, each `all` is one, so every element of its operand is one: every source index and every
  post index is, as a signed 32-bit number, at least 0 and below 100000.
-/
import proofs.«425125_j17540646437558_1_alg».proof.Pre_finite_inputs
import proofs.«425125_j17540646437558_1_alg».proof.Proof.Gen.Pre_finite_inputs
import Idealize.ShloMosaic.Lib.ReduceAll
import Idealize.ShloMosaic.Lib.Affine

noncomputable section

namespace Cert.Pre_finite_inputs.Range

open Cert.Pre_finite_inputs Idealize.ShloMosaic

instance : Subsingleton S_.Idx := ⟨fun a b => funext fun d => d.elim0⟩

variable {F : FTy → Type} [FloatOps F] [Facts]
open Facts

/-- Row 0 of the edge-index array, as the precondition (and both programs) spell it: the [0:1, :] slice reshaped to a
    vector. -/
abbrev srcOf (a1 : IVec S2x1600000 32) : IVec S1600000 32 :=
  shapeCast S1600000 ((extractStridedSlice S1x1600000 ![0, 0] · slices_S2x1600000_S1x1600000_0_0) a1) shapeCasts_S1x1600000_S1600000

/-- Under the precondition every source index and every post index lies in [0, 100000) as a signed number. -/
theorem ranges (a0 : FVec F S100000x128 .f32) (a1 : IVec S2x1600000 32) (a2 : FVec F S1600000x64 .f32) (a3 : IVec S10000 32)
    (a4 : FVec F S64x128 .f32) (a5 : FVec F S64 .f32) (a6 : FVec F S64x64 .f32) (a7 : FVec F S64 .f32) (a8 : FVec F S64x128 .f32)
    (a9 : FVec F S64 .f32) (a10 : FVec F S1x64 .f32) (a11 : FVec F S1 .f32)
    (h : fn (F := F) a0 a1 a2 a3 a4 a5 a6 a7 a8 a9 a10 a11 = fun _ => 1#1) :
    (∀ p : S1600000.Idx, IntOp.cmpi .sge (srcOf a1 p) 0#32 = 1#1 ∧ IntOp.cmpi .slt (srcOf a1 p) 100000#32 = 1#1)
    ∧ (∀ p : S10000.Idx, IntOp.cmpi .sge (a3 p) 0#32 = 1#1 ∧ IntOp.cmpi .slt (a3 p) 100000#32 = 1#1) := by
  have h0 := congrFun h (fun a => a.elim0)
  dsimp only [fn, fn_part1, fn_part2, fn_part3, andi] at h0
  obtain ⟨h59, h65⟩ := IntOp.andi_eq_one.1 h0
  obtain ⟨-, h58⟩ := IntOp.andi_eq_one.1 h59
  refine ⟨fun p => ?_, fun p => ?_⟩
  · exact IntOp.andi_eq_one.1 (Host.reduce_andi_all _ _ _ _ _ h58 p)
  · exact IntOp.andi_eq_one.1 (Host.reduce_andi_all _ _ _ _ _ h65 p)

end Cert.Pre_finite_inputs.Range

end
-- ==== Proof.lean ====
/-
  A message-passing layer over a graph of 100000 nodes and 1600000 edges, scored at 10000 posts:
      node_emb = relu(x · W_nodeᵀ + b_node),      edge_emb = relu(a · W_edgeᵀ + b_edge),
      msg      = node_emb[src] · W_cnᵀ + edge_emb · W_ceᵀ + b_conv,
      out      = sigmoid( (node_emb + segment_sum(msg, dst))[post] · W_outᵀ + b_out ).
  The kernel computes node_emb and msg by two row-tiled pipelines (ten blocks of 10000 nodes, 250 blocks of 6400
  edges) and leaves the two gathers, the scatter-add and the output layer to the host; the reference is the same
  formulas on the host throughout. On the extended reals a change of float format is the identity and a product into
  a zero accumulator is the plain sum, so each pipeline's result array is, index by index, the reference's array (the
  same sums, in the same association), and every later host operation is the same operation on equal operands.
  The two programs differ in one place: the kernel's gathers are jnp.take in its default mode, which fills a row with
  a fixed value when its index is outside [0, 100000) after one wrap of negative indices, while the reference's
  indexing clamps such an index. The statement's precondition therefore asks, besides finite float inputs, that
  every source index (row 0 of the edge-index array) and every post index lie in [0, 100000): then no row is filled,
  nothing is clamped, and the two gathers agree. The destination indices need no condition: both programs apply the
  same scatter-add to them.
  The three frames are the generated ones (the reference's is its generated run with the result dropped); the ledger
  of the idealization is empty, so `preserves` is trivial; `algebraic` pairs the kernel's run, with its result buffer
  read back through the program (KernelValue.lean), with the reference's generated run, both at the reference's
  result term of the kernel's argument arrays.
-/
import proofs.«425125_j17540646437558_1_alg».proof.Defs
import proofs.«425125_j17540646437558_1_alg».proof.Proof.Gen.Kernel
import proofs.«425125_j17540646437558_1_alg».proof.Proof.Gen.Kernel.Skeleton
import proofs.«425125_j17540646437558_1_alg».proof.Proof.Gen.Kernel.Launch
import proofs.«425125_j17540646437558_1_alg».proof.Proof.Gen.Kernel.Points
import proofs.«425125_j17540646437558_1_alg».proof.Proof.Gen.Kernel.Frame
import proofs.«425125_j17540646437558_1_alg».proof.Proof.Gen.KernelIdeal
import proofs.«425125_j17540646437558_1_alg».proof.Proof.Gen.KernelIdeal.Skeleton
import proofs.«425125_j17540646437558_1_alg».proof.Proof.Gen.KernelIdeal.Launch
import proofs.«425125_j17540646437558_1_alg».proof.Proof.Gen.KernelIdeal.Points
import proofs.«425125_j17540646437558_1_alg».proof.Proof.Gen.KernelIdeal.Frame
import proofs.«425125_j17540646437558_1_alg».proof.Proof.Gen.ReferenceIdeal
import proofs.«425125_j17540646437558_1_alg».proof.Proof.Gen.ReferenceIdeal.Run
import proofs.«425125_j17540646437558_1_alg».proof.Proof.Gen.ReferenceIdeal.Read
import proofs.«425125_j17540646437558_1_alg».proof.Proof.Gen.Pre_finite_inputs
import proofs.«425125_j17540646437558_1_alg».proof.Proof.RunValue
import proofs.«425125_j17540646437558_1_alg».proof.Proof.KernelValue
import proofs.«425125_j17540646437558_1_alg».proof.Proof.PreRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no pipeline: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the arguments, end with the result buffer at the reference's result term
    of the kernel's argument arrays: the kernel by the value of its run under the two index-range facts the
    precondition gives, the reference by its generated run with its arguments rewritten to the kernel's. -/
theorem algebraic : Cert.algebraic_KernelIdeal_ReferenceIdeal := by
  intro m ρ m' ρ' hpre hagree
  have hr := fun c => Cert.Pre_finite_inputs.Range.ranges _ _ _ _ _ _ _ _ _ _ _ _ (hpre c)
  refine ⟨fun c => Cert.ReferenceIdeal.Read.val_main_v55 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · refine (θ_run Cert.KernelIdeal.defs _ _).mono (fun r h c => ⟨(h c).1.trans ?_, (h c).2⟩) (Cert.KernelIdeal.RunValue.run m ρ)
    exact Cert.KernelIdeal.Value.result m ρ c (fun p => ((hr c).1 p).1) (fun p => ((hr c).1 p).2) (fun p => ((hr c).2 p).1)
      (fun p => ((hr c).2 p).2)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v55_eq, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
